-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S8x256 : Shape := ⟨2, ![8, 256]⟩
abbrev S256 : Shape := ⟨1, ![256]⟩
abbrev S60x256 : Shape := ⟨2, ![60, 256]⟩
abbrev S60 : Shape := ⟨1, ![60]⟩
abbrev S16x60 : Shape := ⟨2, ![16, 60]⟩
abbrev S16 : Shape := ⟨1, ![16]⟩
abbrev S65536x16 : Shape := ⟨2, ![65536, 16]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S60x256 : S_.BroadcastsInDim S60x256 (![] : Fin 0 → Fin S60x256.rank)
  reducesTo_S60x256_S_d0_1 : S60x256.ReducesTo [0, 1] S_
  bcast_S_S60 : S_.BroadcastsInDim S60 (![] : Fin 0 → Fin S60.rank)
  reducesTo_S60_S_d0 : S60.ReducesTo [0] S_
  bcast_S_S16x60 : S_.BroadcastsInDim S16x60 (![] : Fin 0 → Fin S16x60.rank)
  reducesTo_S16x60_S_d0_1 : S16x60.ReducesTo [0, 1] S_
  bcast_S_S16 : S_.BroadcastsInDim S16 (![] : Fin 0 → Fin S16.rank)
  reducesTo_S16_S_d0 : S16.ReducesTo [0] S_
  bcast_S_S65536x16 : S_.BroadcastsInDim S65536x16 (![] : Fin 0 → Fin S65536x16.rank)
  reducesTo_S65536x16_S_d0_1 : S65536x16.ReducesTo [0, 1] S_

variable [Facts]

def fn_part2 {F : FTy → Type} [FloatOps F] (main_arg7 : FVec F S16 .f32) (main_arg8 : FVec F S65536x16 .f32) (main_arg9 : FVec F S65536x16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S65536x16 .f32 := Host.absf main_arg8
  let main_cst_14 : FVec F S_ .f32 := constant S_ .f32 0x7F800000#32
  let main_v40 : FVec F S65536x16 .f32 := broadcastInDim S65536x16 ![] bcast_S_S65536x16 main_cst_14
  let main_v41 : IVec S65536x16 1 := cmpf .olt main_v39 main_v40
  let main_c_15 : IVec S_ 1 := constantI S_ 1 1#1
  let main_v42 : IVec S_ 1 := (fun x v => Host.reduce IntOp.andi x v reducesTo_S65536x16_S_d0_1 h_S_) main_v41 main_c_15
  let main_v43 : IVec S_ 1 := andi main_v38 main_v42
  let main_v44 : FVec F S65536x16 .f32 := Host.absf main_arg9
  let main_cst_16 : FVec F S_ .f32 := constant S_ .f32 0x7F800000#32
  let main_v45 : FVec F S65536x16 .f32 := broadcastInDim S65536x16 ![] bcast_S_S65536x16 main_cst_16
  let main_v46 : IVec S65536x16 1 := cmpf .olt main_v44 main_v45
  let main_c_17 : IVec S_ 1 := constantI S_ 1 1#1
  let main_v47 : IVec S_ 1 := (fun x v => Host.reduce IntOp.andi x v reducesTo_S65536x16_S_d0_1 h_S_) main_v46 main_c_17
  let main_v48 : IVec S_ 1 := andi main_v43 main_v47
  main_v48

def fn_part1 {F : FTy → Type} [FloatOps F] (main_arg4 : FVec F S60x256 .f32) (main_arg5 : FVec F S60 .f32) (main_arg6 : FVec F S16x60 .f32) (main_arg7 : FVec F S16 .f32) (main_arg8 : FVec F S65536x16 .f32) (main_arg9 : FVec F S65536x16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S60x256 .f32 := Host.absf main_arg4
  let main_cst_6 : FVec F S_ .f32 := constant S_ .f32 0x7F800000#32
  let main_v20 : FVec F S60x256 .f32 := broadcastInDim S60x256 ![] bcast_S_S60x256 main_cst_6
  let main_v21 : IVec S60x256 1 := cmpf .olt main_v19 main_v20
  let main_c_7 : IVec S_ 1 := constantI S_ 1 1#1
  let main_v22 : IVec S_ 1 := (fun x v => Host.reduce IntOp.andi x v reducesTo_S60x256_S_d0_1 h_S_) main_v21 main_c_7
  let main_v23 : IVec S_ 1 := andi main_v18 main_v22
  let main_v24 : FVec F S60 .f32 := Host.absf main_arg5
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S16x60 .f32 := Host.absf main_arg6
  let main_cst_10 : FVec F S_ .f32 := constant S_ .f32 0x7F800000#32
  let main_v30 : FVec F S16x60 .f32 := broadcastInDim S16x60 ![] bcast_S_S16x60 main_cst_10
  let main_v31 : IVec S16x60 1 := cmpf .olt main_v29 main_v30
  let main_c_11 : IVec S_ 1 := constantI S_ 1 1#1
  let main_v32 : IVec S_ 1 := (fun x v => Host.reduce IntOp.andi x v reducesTo_S16x60_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x4096 .f32) (main_arg1 : FVec F S8x256 .f32) (main_arg2 : FVec F S256 .f32) (main_arg3 : FVec F S256 .f32) (main_arg4 : FVec F S60x256 .f32) (main_arg5 : FVec F S60 .f32) (main_arg6 : FVec F S16x60 .f32) (main_arg7 : FVec F S16 .f32) (main_arg8 : FVec F S65536x16 .f32) (main_arg9 : FVec F S65536x16 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x2048x4096 : Shape := ⟨3, ![8, 2048, 4096]⟩
abbrev S8x256 : Shape := ⟨2, ![8, 256]⟩
abbrev S256 : Shape := ⟨1, ![256]⟩
abbrev S60x256 : Shape := ⟨2, ![60, 256]⟩
abbrev S60 : Shape := ⟨1, ![60]⟩
abbrev S16x60 : Shape := ⟨2, ![16, 60]⟩
abbrev S16 : Shape := ⟨1, ![16]⟩
abbrev S65536x16 : Shape := ⟨2, ![65536, 16]⟩
abbrev S_ : Shape := ⟨0, ![]⟩
abbrev S8 : Shape := ⟨1, ![8]⟩
abbrev S8x1 : Shape := ⟨2, ![8, 1]⟩
abbrev S1x256 : Shape := ⟨2, ![1, 256]⟩
abbrev S256x60 : Shape := ⟨2, ![256, 60]⟩
abbrev S8x60 : Shape := ⟨2, ![8, 60]⟩
abbrev S1x60 : Shape := ⟨2, ![1, 60]⟩
abbrev S60x16 : Shape := ⟨2, ![60, 16]⟩
abbrev S8x16 : Shape := ⟨2, ![8, 16]⟩
abbrev S1x16 : Shape := ⟨2, ![1, 16]⟩
abbrev S16x65536 : Shape := ⟨2, ![16, 65536]⟩
abbrev S8x65536 : Shape := ⟨2, ![8, 65536]⟩
abbrev S8x16x4096 : Shape := ⟨3, ![8, 16, 4096]⟩
abbrev S8x4096x16 : Shape := ⟨3, ![8, 4096, 16]⟩
abbrev S1x256x4096 : Shape := ⟨3, ![1, 256, 4096]⟩
abbrev S1x4096x16 : Shape := ⟨3, ![1, 4096, 16]⟩
abbrev S1x16x4096 : Shape := ⟨3, ![1, 16, 4096]⟩
abbrev S256x4096 : Shape := ⟨2, ![256, 4096]⟩
abbrev S4096x16 : Shape := ⟨2, ![4096, 16]⟩
abbrev S16x4096 : Shape := ⟨2, ![16, 4096]⟩
abbrev S256x16 : Shape := ⟨2, ![256, 16]⟩

abbrev nBuf : Space → Nat
  | .hbm => 92
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S8x256, .f32⟩
  | .hbm, ⟨2, _⟩ => ⟨S256, .f32⟩
  | .hbm, ⟨3, _⟩ => ⟨S256, .f32⟩
  | .hbm, ⟨4, _⟩ => ⟨S60x256, .f32⟩
  | .hbm, ⟨5, _⟩ => ⟨S60, .f32⟩
  | .hbm, ⟨6, _⟩ => ⟨S16x60, .f32⟩
  | .hbm, ⟨7, _⟩ => ⟨S16, .f32⟩
  | .hbm, ⟨8, _⟩ => ⟨S65536x16, .f32⟩
  | .hbm, ⟨9, _⟩ => ⟨S65536x16, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S_, .i32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S8x256, .f32⟩
  | .hbm, ⟨41, _⟩ => ⟨S8x256, .f32⟩
  | .hbm, ⟨42, _⟩ => ⟨S_, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S8x256, .f32⟩
  | .hbm, ⟨47, _⟩ => ⟨S8x256, .f32⟩
  | .hbm, ⟨48, _⟩ => ⟨S1x256, .f32⟩
  | .hbm, ⟨49, _⟩ => ⟨S8x256, .f32⟩
  | .hbm, ⟨50, _⟩ => ⟨S8x256, .f32⟩
  | .hbm, ⟨51, _⟩ => ⟨S1x256, .f32⟩
  | .hbm, ⟨52, _⟩ => ⟨S8x256, .f32⟩
  | .hbm, ⟨53, _⟩ => ⟨S8x256, .f32⟩
  | .hbm, ⟨54, _⟩ => ⟨S256x60, .f32⟩
  | .hbm, ⟨55, _⟩ => ⟨S8x60, .f32⟩
  | .hbm, ⟨56, _⟩ => ⟨S1x60, .f32⟩
  | .hbm, ⟨57, _⟩ => ⟨S8x60, .f32⟩
  | .hbm, ⟨58, _⟩ => ⟨S8x60, .f32⟩
  | .hbm, ⟨59, _⟩ => ⟨S_, .f32⟩
  | .hbm, ⟨60, _⟩ => ⟨S8x60, .f32⟩
  | .hbm, ⟨61, _⟩ => ⟨S8x60, .f32⟩
  | .hbm, ⟨62, _⟩ => ⟨S60x16, .f32⟩
  | .hbm, ⟨63, _⟩ => ⟨S8x16, .f32⟩
  | .hbm, ⟨64, _⟩ => ⟨S1x16, .f32⟩
  | .hbm, ⟨65, _⟩ => ⟨S8x16, .f32⟩
  | .hbm, ⟨66, _⟩ => ⟨S8x16, .f32⟩
  | .hbm, ⟨67, _⟩ => ⟨S_, .f32⟩
  | .hbm, ⟨68, _⟩ => ⟨S8x16, .f32⟩
  | .hbm, ⟨69, _⟩ => ⟨S8x16, .f32⟩
  | .hbm, ⟨70, _⟩ => ⟨S_, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8x1, .f32⟩
  | .hbm, ⟨76, _⟩ => ⟨S8x16, .f32⟩
  | .hbm, ⟨77, _⟩ => ⟨S8x16, .f32⟩
  | .hbm, ⟨78, _⟩ => ⟨S8x16, .f32⟩
  | .hbm, ⟨79, _⟩ => ⟨S_, .f32⟩
  | .hbm, ⟨80, _⟩ => ⟨S8, .f32⟩
  | .hbm, ⟨81, _⟩ => ⟨S8x1, .f32⟩
  | .hbm, ⟨82, _⟩ => ⟨S8x16, .f32⟩
  | .hbm, ⟨83, _⟩ => ⟨S8x16, .f32⟩
  | .hbm, ⟨84, _⟩ => ⟨S16x65536, .f32⟩
  | .hbm, ⟨85, _⟩ => ⟨S8x65536, .f32⟩
  | .hbm, ⟨86, _⟩ => ⟨S8x16x4096, .f32⟩
  | .hbm, ⟨87, _⟩ => ⟨S8x4096x16, .f32⟩
  | .hbm, ⟨88, _⟩ => ⟨S16x65536, .f32⟩
  | .hbm, ⟨89, _⟩ => ⟨S8x65536, .f32⟩
  | .hbm, ⟨90, _⟩ => ⟨S8x16x4096, .f32⟩
  | .hbm, ⟨91, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x4096x16, .f32⟩
  | .local _ .vmem, ⟨3, _⟩ => ⟨S1x4096x16, .f32⟩
  | .local _ .vmem, ⟨4, _⟩ => ⟨S1x16x4096, .f32⟩
  | .local _ .vmem, ⟨5, _⟩ => ⟨S1x16x4096, .f32⟩
  | .local _ .vmem, ⟨6, _⟩ => ⟨S1x256x4096, .f32⟩
  | .local _ .vmem, ⟨7, _⟩ => ⟨S1x256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_cst : Ref sig .tc := ⟨.hbm, 59, rfl⟩
abbrev main_call1_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_2 : Ref sig .tc := ⟨.hbm, 67, rfl⟩
abbrev main_v29 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S60x256_S256x60_1_0 : S60x256.Transposes [1, 0] S256x60
  bcast_S60_S1x60_1 : S60.BroadcastsInDim S1x60 (![1] : Fin 1 → Fin S1x60.rank)
  bcast_S1x60_S8x60_0_1 : S1x60.BroadcastsInDim S8x60 (![0, 1] : Fin 2 → Fin S8x60.rank)
  bcast_S_S8x60 : S_.BroadcastsInDim S8x60 (![] : Fin 0 → Fin S8x60.rank)
  transposes_S16x60_S60x16_1_0 : S16x60.Transposes [1, 0] S60x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  bcast_S_S8 : S_.BroadcastsInDim S8 (![] : Fin 0 → Fin S8.rank)
  bcast_S8x1_S8x16_0_1 : S8x1.BroadcastsInDim S8x16 (![0, 1] : Fin 2 → Fin S8x16.rank)
  transposes_S65536x16_S16x65536_1_0 : S65536x16.Transposes [1, 0] S16x65536
  shapeCasts_S8x65536_S8x16x4096 : S8x65536.ShapeCasts S8x16x4096
  transposes_S8x16x4096_S8x4096x16_0_2_1 : S8x16x4096.Transposes [0, 2, 1] S8x4096x16
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  shapeCasts_S256x4096_S1x256x4096 : S256x4096.ShapeCasts S1x256x4096
  dot_S8x256_S256x60_S8x60_1_0_0_1_n_n_wf : DotDims.WF S8x256 S256x60 S8x60 [1] [0] [0] [1] [] []
  dot_S8x60_S60x16_S8x16_1_0_0_1_n_n_wf : DotDims.WF S8x60 S60x16 S8x16 [1] [0] [0] [1] [] []
  dot_S8x16_S16x65536_S8x65536_1_0_0_1_n_n_wf : DotDims.WF S8x16 S16x65536 S8x65536 [1] [0] [0] [1] [] []
  dot_S256x4096_S4096x16_S256x16_1_0_0_1_n_n_wf : DotDims.WF S256x4096 S4096x16 S256x16 [1] [0] [0] [1] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .f32 = 32 ∨ (Rect.block (s := S8x2048x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x16.size a ≤ S8x4096x16.size a
  hwx0_1 : ∀ i : grid0.Coords, EltTy.bits .f32 = 32 ∨ (Rect.block (s := S8x4096x16) S1x4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x4096.size a ≤ S8x16x4096.size a
  hwx0_2 : ∀ i : grid0.Coords, EltTy.bits .f32 = 32 ∨ (Rect.block (s := S8x16x4096) S1x16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x2048x4096.size a
  hwx0_3 : ∀ i : grid0.Coords, EltTy.bits .f32 = 32 ∨ (Rect.block (s := S8x2048x4096) S1x256x4096.size (cc0_transform_3 i) (hinb0_3 i)).WholeWords (EltTy.packing .f32)

variable [Facts₀]

def dot_S8x256_S256x60_S8x60_1_0_0_1_n_n : DotDims S8x256 S256x60 S8x60 where
  lhsContracting := [1]
  rhsContracting := [0]
  lhsNonContracting := [0]
  rhsNonContracting := [1]
  lhsBatch := []
  rhsBatch := []
  wf := dot_S8x256_S256x60_S8x60_1_0_0_1_n_n_wf
def dot_S8x60_S60x16_S8x16_1_0_0_1_n_n : DotDims S8x60 S60x16 S8x16 where
  lhsContracting := [1]
  rhsContracting := [0]
  lhsNonContracting := [0]
  rhsNonContracting := [1]
  lhsBatch := []
  rhsBatch := []
  wf := dot_S8x60_S60x16_S8x16_1_0_0_1_n_n_wf
def dot_S8x16_S16x65536_S8x65536_1_0_0_1_n_n : DotDims S8x16 S16x65536 S8x65536 where
  lhsContracting := [1]
  rhsContracting := [0]
  lhsNonContracting := [0]
  rhsNonContracting := [1]
  lhsBatch := []
  rhsBatch := []
  wf := dot_S8x16_S16x65536_S8x65536_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x16x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S8x256 : Shape := ⟨2, ![8, 256]⟩
abbrev S256 : Shape := ⟨1, ![256]⟩
abbrev S60x256 : Shape := ⟨2, ![60, 256]⟩
abbrev S60 : Shape := ⟨1, ![60]⟩
abbrev S16x60 : Shape := ⟨2, ![16, 60]⟩
abbrev S16 : Shape := ⟨1, ![16]⟩
abbrev S65536x16 : Shape := ⟨2, ![65536, 16]⟩
abbrev S_ : Shape := ⟨0, ![]⟩
abbrev S8 : Shape := ⟨1, ![8]⟩
abbrev S8x1 : Shape := ⟨2, ![8, 1]⟩
abbrev S1x256 : Shape := ⟨2, ![1, 256]⟩
abbrev S256x60 : Shape := ⟨2, ![256, 60]⟩
abbrev S8x60 : Shape := ⟨2, ![8, 60]⟩
abbrev S1x60 : Shape := ⟨2, ![1, 60]⟩
abbrev S60x16 : Shape := ⟨2, ![60, 16]⟩
abbrev S8x16 : Shape := ⟨2, ![8, 16]⟩
abbrev S1x16 : Shape := ⟨2, ![1, 16]⟩
abbrev S16x65536 : Shape := ⟨2, ![16, 65536]⟩
abbrev S8x65536 : Shape := ⟨2, ![8, 65536]⟩
abbrev S8x16x4096 : Shape := ⟨3, ![8, 16, 4096]⟩
abbrev S8x4096x16 : Shape := ⟨3, ![8, 4096, 16]⟩
abbrev S8x2048x16 : Shape := ⟨3, ![8, 2048, 16]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x256, .f32⟩
  | .hbm, ⟨2, _⟩ => ⟨S256, .f32⟩
  | .hbm, ⟨3, _⟩ => ⟨S256, .f32⟩
  | .hbm, ⟨4, _⟩ => ⟨S60x256, .f32⟩
  | .hbm, ⟨5, _⟩ => ⟨S60, .f32⟩
  | .hbm, ⟨6, _⟩ => ⟨S16x60, .f32⟩
  | .hbm, ⟨7, _⟩ => ⟨S16, .f32⟩
  | .hbm, ⟨8, _⟩ => ⟨S65536x16, .f32⟩
  | .hbm, ⟨9, _⟩ => ⟨S65536x16, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S_, .i32⟩
  | .hbm, ⟨17, _⟩ => ⟨S_, .f32⟩
  | .hbm, ⟨18, _⟩ => ⟨S8, .f32⟩
  | .hbm, ⟨19, _⟩ => ⟨S8x1, .f32⟩
  | .hbm, ⟨20, _⟩ => ⟨S_, .f32⟩
  | .hbm, ⟨21, _⟩ => ⟨S8x1, .f32⟩
  | .hbm, ⟨22, _⟩ => ⟨S8x1, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S8x1, .f32⟩
  | .hbm, ⟨39, _⟩ => ⟨S8x1, .f32⟩
  | .hbm, ⟨40, _⟩ => ⟨S8x256, .f32⟩
  | .hbm, ⟨41, _⟩ => ⟨S8x256, .f32⟩
  | .hbm, ⟨42, _⟩ => ⟨S_, .f32⟩
  | .hbm, ⟨43, _⟩ => ⟨S8x1, .f32⟩
  | .hbm, ⟨44, _⟩ => ⟨S8x1, .f32⟩
  | .hbm, ⟨45, _⟩ => ⟨S8x1, .f32⟩
  | .hbm, ⟨46, _⟩ => ⟨S8x256, .f32⟩
  | .hbm, ⟨47, _⟩ => ⟨S8x256, .f32⟩
  | .hbm, ⟨48, _⟩ => ⟨S1x256, .f32⟩
  | .hbm, ⟨49, _⟩ => ⟨S8x256, .f32⟩
  | .hbm, ⟨50, _⟩ => ⟨S8x256, .f32⟩
  | .hbm, ⟨51, _⟩ => ⟨S1x256, .f32⟩
  | .hbm, ⟨52, _⟩ => ⟨S8x256, .f32⟩
  | .hbm, ⟨53, _⟩ => ⟨S8x256, .f32⟩
  | .hbm, ⟨54, _⟩ => ⟨S256x60, .f32⟩
  | .hbm, ⟨55, _⟩ => ⟨S8x60, .f32⟩
  | .hbm, ⟨56, _⟩ => ⟨S1x60, .f32⟩
  | .hbm, ⟨57, _⟩ => ⟨S8x60, .f32⟩
  | .hbm, ⟨58, _⟩ => ⟨S8x60, .f32⟩
  | .hbm, ⟨59, _⟩ => ⟨S_, .f32⟩
  | .hbm, ⟨60, _⟩ => ⟨S8x60, .f32⟩
  | .hbm, ⟨61, _⟩ => ⟨S8x60, .f32⟩
  | .hbm, ⟨62, _⟩ => ⟨S60x16, .f32⟩
  | .hbm, ⟨63, _⟩ => ⟨S8x16, .f32⟩
  | .hbm, ⟨64, _⟩ => ⟨S1x16, .f32⟩
  | .hbm, ⟨65, _⟩ => ⟨S8x16, .f32⟩
  | .hbm, ⟨66, _⟩ => ⟨S8x16, .f32⟩
  | .hbm, ⟨67, _⟩ => ⟨S_, .f32⟩
  | .hbm, ⟨68, _⟩ => ⟨S8x16, .f32⟩
  | .hbm, ⟨69, _⟩ => ⟨S8x16, .f32⟩
  | .hbm, ⟨70, _⟩ => ⟨S_, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S8x1, .f32⟩
  | .hbm, ⟨76, _⟩ => ⟨S8x16, .f32⟩
  | .hbm, ⟨77, _⟩ => ⟨S8x16, .f32⟩
  | .hbm, ⟨78, _⟩ => ⟨S8x16, .f32⟩
  | .hbm, ⟨79, _⟩ => ⟨S_, .f32⟩
  | .hbm, ⟨80, _⟩ => ⟨S8, .f32⟩
  | .hbm, ⟨81, _⟩ => ⟨S8x1, .f32⟩
  | .hbm, ⟨82, _⟩ => ⟨S8x16, .f32⟩
  | .hbm, ⟨83, _⟩ => ⟨S8x16, .f32⟩
  | .hbm, ⟨84, _⟩ => ⟨S16x65536, .f32⟩
  | .hbm, ⟨85, _⟩ => ⟨S8x65536, .f32⟩
  | .hbm, ⟨86, _⟩ => ⟨S8x16x4096, .f32⟩
  | .hbm, ⟨87, _⟩ => ⟨S8x4096x16, .f32⟩
  | .hbm, ⟨88, _⟩ => ⟨S16x65536, .f32⟩
  | .hbm, ⟨89, _⟩ => ⟨S8x65536, .f32⟩
  | .hbm, ⟨90, _⟩ => ⟨S8x16x4096, .f32⟩
  | .hbm, ⟨91, _⟩ => ⟨S8x2048x16, .f32⟩
  | .hbm, ⟨92, _⟩ => ⟨S8x2048x4096, .f32⟩
  | .hbm, ⟨93, _⟩ => ⟨S_, .f32⟩
  | .hbm, ⟨94, _⟩ => ⟨S8x2048x4096, .f32⟩
  | .hbm, ⟨95, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_cst : Ref sig .tc := ⟨.hbm, 59, rfl⟩
abbrev main_call1_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_2 : Ref sig .tc := ⟨.hbm, 67, rfl⟩
abbrev main_v29 : Ref sig .tc := ⟨.hbm, 68, rfl⟩
abbrev main_v30 : Ref sig .tc := ⟨.hbm, 69, rfl⟩
abbrev main_cst_3 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_6 : Ref sig .tc := ⟨.hbm, 93, rfl⟩
abbrev main_v51 : Ref sig .tc := ⟨.hbm, 94, rfl⟩
abbrev main_v52 : Ref sig .tc := ⟨.hbm, 95, rfl⟩

abbrev nD : Nat := 1
abbrev τ : Topo := Topo.v7x

variable {F : FTy → Type} [FloatOps F]

class Facts₀ : Prop where
  reducesTo_S8x256_S8_d1 : S8x256.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x256_0_1 : S8x1.BroadcastsInDim S8x256 (![0, 1] : Fin 2 → Fin S8x256.rank)
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S60x256_S256x60_1_0 : S60x256.Transposes [1, 0] S256x60
  bcast_S60_S1x60_1 : S60.BroadcastsInDim S1x60 (![1] : Fin 1 → Fin S1x60.rank)
  bcast_S1x60_S8x60_0_1 : S1x60.BroadcastsInDim S8x60 (![0, 1] : Fin 2 → Fin S8x60.rank)
  bcast_S_S8x60 : S_.BroadcastsInDim S8x60 (![] : Fin 0 → Fin S8x60.rank)
  transposes_S16x60_S60x16_1_0 : S16x60.Transposes [1, 0] S60x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  bcast_S_S8 : S_.BroadcastsInDim S8 (![] : Fin 0 → Fin S8.rank)
  bcast_S8x1_S8x16_0_1 : S8x1.BroadcastsInDim S8x16 (![0, 1] : Fin 2 → Fin S8x16.rank)
  transposes_S65536x16_S16x65536_1_0 : S65536x16.Transposes [1, 0] S16x65536
  shapeCasts_S8x65536_S8x16x4096 : S8x65536.ShapeCasts S8x16x4096
  transposes_S8x16x4096_S8x4096x16_0_2_1 : S8x16x4096.Transposes [0, 2, 1] S8x4096x16
  bcast_S_S8x2048x4096 : S_.BroadcastsInDim S8x2048x4096 (![] : Fin 0 → Fin S8x2048x4096.rank)
  dot_S8x256_S256x60_S8x60_1_0_0_1_n_n_wf : DotDims.WF S8x256 S256x60 S8x60 [1] [0] [0] [1] [] []
  dot_S8x60_S60x16_S8x16_1_0_0_1_n_n_wf : DotDims.WF S8x60 S60x16 S8x16 [1] [0] [0] [1] [] []
  dot_S8x16_S16x65536_S8x65536_1_0_0_1_n_n_wf : DotDims.WF S8x16 S16x65536 S8x65536 [1] [0] [0] [1] [] []
  dot_S8x2048x4096_S8x4096x16_S8x2048x16_2_1_1_2_0_0_wf : DotDims.WF S8x2048x4096 S8x4096x16 S8x2048x16 [2] [1] [1] [2] [0] [0]
  dot_S8x2048x16_S8x16x4096_S8x2048x4096_2_1_1_2_0_0_wf : DotDims.WF S8x2048x16 S8x16x4096 S8x2048x4096 [2] [1] [1] [2] [0] [0]

variable [Facts₀]

def dot_S8x256_S256x60_S8x60_1_0_0_1_n_n : DotDims S8x256 S256x60 S8x60 where
  lhsContracting := [1]
  rhsContracting := [0]
  lhsNonContracting := [0]
  rhsNonContracting := [1]
  lhsBatch := []
  rhsBatch := []
  wf := dot_S8x256_S256x60_S8x60_1_0_0_1_n_n_wf
def dot_S8x60_S60x16_S8x16_1_0_0_1_n_n : DotDims S8x60 S60x16 S8x16 where
  lhsContracting := [1]
  rhsContracting := [0]
  lhsNonContracting := [0]
  rhsNonContracting := [1]
  lhsBatch := []
  rhsBatch := []
  wf := dot_S8x60_S60x16_S8x16_1_0_0_1_n_n_wf
def dot_S8x16_S16x65536_S8x65536_1_0_0_1_n_n : DotDims S8x16 S16x65536 S8x65536 where
  lhsContracting := [1]
  rhsContracting := [0]
  lhsNonContracting := [0]
  rhsNonContracting := [1]
  lhsBatch := []
  rhsBatch := []
  wf := dot_S8x16_S16x65536_S8x65536_1_0_0_1_n_n_wf
def dot_S8x2048x4096_S8x4096x16_S8x2048x16_2_1_1_2_0_0 : DotDims S8x2048x4096 S8x4096x16 S8x2048x16 where
  lhsContracting := [2]
  rhsContracting := [1]
  lhsNonContracting := [1]
  rhsNonContracting := [2]
  lhsBatch := [0]
  rhsBatch := [0]
  wf := dot_S8x2048x4096_S8x4096x16_S8x2048x16_2_1_1_2_0_0_wf
def dot_S8x2048x16_S8x16x4096_S8x2048x4096_2_1_1_2_0_0 : DotDims S8x2048x16 S8x16x4096 S8x2048x4096 where
  lhsContracting := [2]
  rhsContracting := [1]
  lhsNonContracting := [1]
  rhsNonContracting := [2]
  lhsBatch := [0]
  rhsBatch := [0]
  wf := dot_S8x2048x16_S8x16x4096_S8x2048x4096_2_1_1_2_0_0_wf

class Facts : Prop extends Facts₀ where

variable [Facts]
-- ==== Proof.Spec.lean ====
/-
  What both programs compute, as one function of three arrays.

  With x : [8, 2048, 4096], A : [8, 4096, 16] and B : [8, 16, 4096] (the two per-batch low-rank adapters), the result at
  (b, s, o) is

      ( ∑ r < 16, ( ∑ k < 4096, x[b, s, k] · A[b, k, r] ) · B[b, r, o] ) · 2

  on the extended reals: the rank-16 chained product, the inner sum taken first, scaled by the constant 2 (kept as its
  f32 word: the same word stands on both sides and is never evaluated).  No law of the extended reals is needed beyond
  reading both programs' products as these sums in this grouping, so finiteness of the inputs plays no part.
-/
import Idealize.ShloMosaic.PureOps.Ideal
import Idealize.ShloMosaic.Lib.ValueIdx

noncomputable section

namespace Cert.Lowrank

open Idealize.ShloMosaic Idealize.ShloMosaic.ValueIdx

abbrev SX : Shape := ⟨3, ![8, 2048, 4096]⟩
abbrev SA : Shape := ⟨3, ![8, 4096, 16]⟩
abbrev SB : Shape := ⟨3, ![8, 16, 4096]⟩

/-- The scaling constant 2, as its f32 word read at the ideal values. -/
abbrev two : EReal := Ideal.ofBits .f32 0x40000000#32

/-- Row s of batch b of x against column r of that batch's A. -/
def xa (x : SX.Idx → EReal) (A : SA.Idx → EReal) (b : Fin 8) (s : Fin 2048) (r : Fin 16) : EReal :=
  ∑ k : Fin 4096, x (ix3 b s k) * A (ix3 b k r)

/-- The result at (b, s, o). -/
def outAt (x : SX.Idx → EReal) (A : SA.Idx → EReal) (B : SB.Idx → EReal) (b : Fin 8) (s : Fin 2048) (o : Fin 4096) : EReal :=
  (∑ r : Fin 16, xa x A b s r * B (ix3 b r o)) * two

/-- The whole result array. -/
def out (x : SX.Idx → EReal) (A : SA.Idx → EReal) (B : SB.Idx → EReal) : SX.Idx → EReal :=
  fun i => outAt x A B (i 0) (i 1) (i 2)

theorem out_ix3 (x : SX.Idx → EReal) (A : SA.Idx → EReal) (B : SB.Idx → EReal) (b : Fin 8) (s : Fin 2048) (o : Fin 4096) :
    out x A B (ix3 b s o) = outAt x A B b s o := rfl

end Cert.Lowrank

end
-- ==== Proof.KernelBody.lean ====
/-
  The kernel body's value at an index, at the ideal values.

  One grid point loads a [1, 256, 4096] block of x, a [1, 4096, 16] block of A and a [1, 16, 4096] block of B, drops the
  unit axes, multiplies x·A into a zero accumulator, multiplies that by B into a zero accumulator, scales by 2 and stores
  the [1, 256, 4096] result.  The narrowings to bf16 between the steps are the identity on the extended reals, and a
  product into a zero accumulator is the plain sum over the contracted axis; so the stored block at (0, p, o) is
  (∑ r, (∑ k, x[0, p, k] · A[0, k, r]) · B[0, r, o]) · 2.
-/
import proofs.«119206_j67353677136189_1_alg».proof.Proof.Gen.KernelIdeal.Skeleton
import proofs.«119206_j67353677136189_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx Cert.Lowrank

/-! ## The first product: [256, 4096] × [4096, 16], contracting the 4096 axis -/

theorem lhs_xa_0 (i : S256x16.Idx) (q : dot_S256x4096_S4096x16_S256x16_1_0_0_1_n_n.contr.Idx) :
    (dot_S256x4096_S4096x16_S256x16_1_0_0_1_n_n.lhsIdx i q 0).val = (i 0).val := by
  unfold DotDims.lhsIdx
  rw [dif_neg (show ¬(0 : Fin S256x4096.rank) ∈ dot_S256x4096_S4096x16_S256x16_1_0_0_1_n_n.lhsBatch by decide), dif_pos (show (0 : Fin S256x4096.rank) ∈ dot_S256x4096_S4096x16_S256x16_1_0_0_1_n_n.lhsNonContracting by decide)]
  rfl
theorem lhs_xa_1 (i : S256x16.Idx) (q : dot_S256x4096_S4096x16_S256x16_1_0_0_1_n_n.contr.Idx) :
    (dot_S256x4096_S4096x16_S256x16_1_0_0_1_n_n.lhsIdx i q 1).val = (q ⟨0, by decide⟩).val :=
  dot_S256x4096_S4096x16_S256x16_1_0_0_1_n_n.lhsIdx_val_of_single rfl i q
theorem rhs_xa_0 (i : S256x16.Idx) (q : dot_S256x4096_S4096x16_S256x16_1_0_0_1_n_n.contr.Idx) :
    (dot_S256x4096_S4096x16_S256x16_1_0_0_1_n_n.rhsIdx i q 0).val = (q ⟨0, by decide⟩).val :=
  dot_S256x4096_S4096x16_S256x16_1_0_0_1_n_n.rhsIdx_val_of_single rfl i q
theorem rhs_xa_1 (i : S256x16.Idx) (q : dot_S256x4096_S4096x16_S256x16_1_0_0_1_n_n.contr.Idx) :
    (dot_S256x4096_S4096x16_S256x16_1_0_0_1_n_n.rhsIdx i q 1).val = (i 1).val := by
  unfold DotDims.rhsIdx
  rw [dif_neg (show ¬(1 : Fin S4096x16.rank) ∈ dot_S256x4096_S4096x16_S256x16_1_0_0_1_n_n.rhsBatch by decide), dif_pos (show (1 : Fin S4096x16.rank) ∈ dot_S256x4096_S4096x16_S256x16_1_0_0_1_n_n.rhsNonContracting by decide)]
  rfl

/-- Into the zero accumulator, entry (p, c) of the first product is the sum over k of l[p, k] · r[k, c]. -/
theorem xa_apply (l : FVec Ideal S256x4096 .bf16) (r : FVec Ideal S4096x16 .bf16) (p : Fin 256) (c : Fin 16) :
    matmul dot_S256x4096_S4096x16_S256x16_1_0_0_1_n_n none l r (constant (F := Ideal) S256x16 .f32 0x00000000#32) (ix2 p c)
      = ∑ k : Fin 4096, l (ix2 p k) * r (ix2 k c) := by
  simp only [matmul]
  rw [Ideal.matmul_constant_zero_apply, ← Equiv.sum_comp (contrEquiv1 dot_S256x4096_S4096x16_S256x16_1_0_0_1_n_n 4096 rfl rfl).symm]
  refine Finset.sum_congr rfl fun k _ => ?_
  have hk := contrEquiv1_symm_val dot_S256x4096_S4096x16_S256x16_1_0_0_1_n_n 4096 rfl rfl k
  have el : dot_S256x4096_S4096x16_S256x16_1_0_0_1_n_n.lhsIdx (ix2 p c) ((contrEquiv1 dot_S256x4096_S4096x16_S256x16_1_0_0_1_n_n 4096 rfl rfl).symm k) = ix2 p k := funext fun a => Fin.ext (by
    match a with
    | ⟨0, _⟩ => exact lhs_xa_0 _ _
    | ⟨1, _⟩ => exact (lhs_xa_1 _ _).trans hk)
  have er : dot_S256x4096_S4096x16_S256x16_1_0_0_1_n_n.rhsIdx (ix2 p c) ((contrEquiv1 dot_S256x4096_S4096x16_S256x16_1_0_0_1_n_n 4096 rfl rfl).symm k) = ix2 k c := funext fun a => Fin.ext (by
    match a with
    | ⟨0, _⟩ => exact (rhs_xa_0 _ _).trans hk
    | ⟨1, _⟩ => exact rhs_xa_1 _ _)
  rw [el, er]

/-! ## The second product: [256, 16] × [16, 4096], contracting the rank axis -/

theorem lhs_xab_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lhs_xab_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem rhs_xab_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem rhs_xab_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- Into the zero accumulator, entry (p, c) of the second product is the sum over the 16 ranks of l[p, r] · r[r, c]. -/
theorem xab_apply (l : FVec Ideal S256x16 .bf16) (r : FVec Ideal S16x4096 .bf16) (p : Fin 256) (c : Fin 4096) :
    matmul dot_S256x16_S16x4096_S256x4096_1_0_0_1_n_n none l r (constant (F := Ideal) S256x4096 .f32 0x00000000#32) (ix2 p c)
      = ∑ k : Fin 16, l (ix2 p k) * r (ix2 k c) := by
  simp only [matmul]
  rw [Ideal.matmul_constant_zero_apply, ← Equiv.sum_comp (contrEquiv1 dot_S256x16_S16x4096_S256x4096_1_0_0_1_n_n 16 rfl rfl).symm]
  refine Finset.sum_congr rfl fun k _ => ?_
  have hk := contrEquiv1_symm_val dot_S256x16_S16x4096_S256x4096_1_0_0_1_n_n 16 rfl rfl k
  have el : dot_S256x16_S16x4096_S256x4096_1_0_0_1_n_n.lhsIdx (ix2 p c) ((contrEquiv1 dot_S256x16_S16x4096_S256x4096_1_0_0_1_n_n 16 rfl rfl).symm k) = ix2 p k := funext fun a => Fin.ext (by
    match a with
    | ⟨0, _⟩ => exact lhs_xab_0 _ _
    | ⟨1, _⟩ => exact (lhs_xab_1 _ _).trans hk)
  have er : dot_S256x16_S16x4096_S256x4096_1_0_0_1_n_n.rhsIdx (ix2 p c) ((contrEquiv1 dot_S256x16_S16x4096_S256x4096_1_0_0_1_n_n 16 rfl rfl).symm k) = ix2 k c := funext fun a => Fin.ext (by
    match a with
    | ⟨0, _⟩ => exact (rhs_xab_0 _ _).trans hk
    | ⟨1, _⟩ => exact rhs_xab_1 _ _)
  rw [el, er]

/-! ## The stored block -/

/-- The value the body stores, at (u, p, o) of the [1, 256, 4096] block, from the three loaded blocks. -/
theorem pay_apply (v0 : Vec Ideal S1x256x4096 .f32) (v3 : Vec Ideal S1x4096x16 .f32) (v6 : Vec Ideal S1x16x4096 .f32)
    (u : Fin 1) (p : Fin 256) (o : Fin 4096) :
    k0_pay1 (F := Ideal) v0 v3 v6 (ix3 u p o)
      = (∑ r : Fin 16, (∑ k : Fin 4096, v0 (ix3 (0 : Fin 1) p k) * v3 (ix3 (0 : Fin 1) k r)) * v6 (ix3 (0 : Fin 1) r o)) * two := by
  unfold k0_pay1
  refine (shapeCast_ab_1ab_apply _ _ u p o).trans ?_
  rw [mulf_apply, broadcast_apply, xab_apply]
  simp only [truncf_apply, xa_apply, shapeCast_1ab_ab_apply]
  rfl

end Cert.KernelIdeal.BodyValue

end
-- ==== Proof.KernelValue.lean ====
/-
  The kernel's result array as one function of the arrays the region finds.

  The grid is 8 × 8: point (b, s) reads rows 256·s … 256·s + 255 of batch b of x, the whole of batch b of A and of B, and
  writes the same rows of batch b of the result.  Each point's block is the specification's `out` read through the block
  (the body's value at an index, with every block index placed in its array), the 64 blocks tile the [8, 2048, 4096] array
  (the point that covers (b, r, o) is (b, r / 256)), so after the run the array is `out` of x and of the two adapter arrays
  as the host operations before the region left them.
-/
import proofs.«119206_j67353677136189_1_alg».proof.Proof.Gen.KernelIdeal.Value
import proofs.«119206_j67353677136189_1_alg».proof.Proof.KernelBody

noncomputable section

namespace Cert.KernelIdeal.ArrayValue

open Cert.KernelIdeal Cert.KernelIdeal.Gen Cert.KernelIdeal.Value Cert.KernelIdeal.BodyValue
open Idealize.ShloMosaic Idealize.ShloMosaic.TcCoe Idealize.SL.Sem Idealize.ShloMosaic.ValueIdx Cert.Lowrank
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The printed index maps over the grid: x's and the result's blocks move together on the batch and row-tile axes, the
    adapters' blocks follow the batch axis only, and every other block index is 0. -/
theorem grid_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 7 ∧ win0_3.index t (2 : Fin 3) = 0 :=
  (by decide +kernel : ∀ t : Fin grid0.N, _)

/-- Every (batch, row tile) is some grid point's. -/
theorem grid_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- The three arrays as the region finds them, at their literal types: x as launched, and the adapters A and B as the host
    operations before the region left them. -/
abbrev arrX (c : Dev nD) : FVec Ideal S8x2048x4096 .f32 := V m c main_arg0
abbrev arrA (c : Dev nD) : FVec Ideal S8x4096x16 .f32 := V m c main_v45
abbrev arrB (c : Dev nD) : FVec Ideal S8x16x4096 .f32 := V m c main_v48

/-- An input window's block at a point is its array read through the block. -/
theorem read0 (c : Dev nD) (t : Fin cfg0.N) (y : S1x256x4096.Idx) :
    iblk m c 0 t y = arrX m c (((cfg0.win 0).blk t).view.emb y) := rfl
theorem read1 (c : Dev nD) (t : Fin cfg0.N) (y : S1x4096x16.Idx) :
    iblk m c 1 t y = arrA m c (((cfg0.win 1).blk t).view.emb y) := rfl
theorem read2 (c : Dev nD) (t : Fin cfg0.N) (y : S1x16x4096.Idx) :
    iblk m c 2 t y = arrB m c (((cfg0.win 2).blk t).view.emb y) := rfl

/-- The batch a grid point works on. -/
def batchOf (t : Fin cfg0.N) : Fin 8 := ⟨win0_3.index t (0 : Fin 3), by have := (grid_facts t).2.2.2.2.2.2.2.2.2.1; omega⟩

/-- The array row that row `p` of a grid point's tile is. -/
def rowOf (t : Fin cfg0.N) (p : Fin 256) : Fin 2048 :=
  ⟨win0_3.index t (1 : Fin 3) * 256 + p.val, by have := (grid_facts t).2.2.2.2.2.2.2.2.2.2.1; have := p.isLt; omega⟩

/-- Where each block's index (·, p, o) lies in its array: a block's coordinate is its block index times the block's extent
    plus the coordinate inside the block. -/
theorem emb3 (t : Fin cfg0.N) (u : Fin 1) (p : Fin 256) (o : Fin 4096) :
    ((cfg0.win 3).blk t).view.emb (ix3 u p o) = ix3 (batchOf t) (rowOf t p) o := by
  obtain ⟨e00, e01, e02, e10, e11, e12, e20, e21, e22, b0, b1, e32⟩ := grid_facts t
  have hu : u.val = 0 := by omega
  funext a; apply Fin.ext
  match a with
  | ⟨0, _⟩ => show win0_3.index t (0 : Fin 3) * 1 + 1 * u.val = win0_3.index t (0 : Fin 3); omega
  | ⟨1, _⟩ => show win0_3.index t (1 : Fin 3) * 256 + 1 * p.val = win0_3.index t (1 : Fin 3) * 256 + p.val; omega
  | ⟨2, _⟩ => show win0_3.index t (2 : Fin 3) * 4096 + 1 * o.val = o.val; omega

theorem emb0 (t : Fin cfg0.N) (p : Fin 256) (k : Fin 4096) :
    ((cfg0.win 0).blk t).view.emb (ix3 (0 : Fin 1) p k) = ix3 (batchOf t) (rowOf t p) k := by
  obtain ⟨e00, e01, e02, e10, e11, e12, e20, e21, e22, b0, b1, e32⟩ := grid_facts t
  funext a; apply Fin.ext
  match a with
  | ⟨0, _⟩ => show win0_0.index t (0 : Fin 3) * 1 + 1 * 0 = win0_3.index t (0 : Fin 3); omega
  | ⟨1, _⟩ => show win0_0.index t (1 : Fin 3) * 256 + 1 * p.val = win0_3.index t (1 : Fin 3) * 256 + p.val; omega
  | ⟨2, _⟩ => show win0_0.index t (2 : Fin 3) * 4096 + 1 * k.val = k.val; omega

theorem emb1 (t : Fin cfg0.N) (k : Fin 4096) (r : Fin 16) :
    ((cfg0.win 1).blk t).view.emb (ix3 (0 : Fin 1) k r) = ix3 (batchOf t) k r := by
  obtain ⟨e00, e01, e02, e10, e11, e12, e20, e21, e22, b0, b1, e32⟩ := grid_facts t
  funext a; apply Fin.ext
  match a with
  | ⟨0, _⟩ => show win0_1.index t (0 : Fin 3) * 1 + 1 * 0 = win0_3.index t (0 : Fin 3); omega
  | ⟨1, _⟩ => show win0_1.index t (1 : Fin 3) * 4096 + 1 * k.val = k.val; omega
  | ⟨2, _⟩ => show win0_1.index t (2 : Fin 3) * 16 + 1 * r.val = r.val; omega

theorem emb2 (t : Fin cfg0.N) (r : Fin 16) (o : Fin 4096) :
    ((cfg0.win 2).blk t).view.emb (ix3 (0 : Fin 1) r o) = ix3 (batchOf t) r o := by
  obtain ⟨e00, e01, e02, e10, e11, e12, e20, e21, e22, b0, b1, e32⟩ := grid_facts t
  funext a; apply Fin.ext
  match a with
  | ⟨0, _⟩ => show win0_2.index t (0 : Fin 3) * 1 + 1 * 0 = win0_3.index t (0 : Fin 3); omega
  | ⟨1, _⟩ => show win0_2.index t (1 : Fin 3) * 16 + 1 * r.val = r.val; omega
  | ⟨2, _⟩ => show win0_2.index t (2 : Fin 3) * 4096 + 1 * o.val = o.val; omega

/-- What point `t` writes back is block `t` of `out` of the arrays as the region finds them. -/
theorem flushed3_eq (c : Dev nD) (t : Fin cfg0.N) :
    (dats m 0 c).flushed 3 t = ((cfg0.win 3).blk t).view.read (Elt Ideal) (out (arrX m c) (arrA m c) (arrB m c)) := by
  rw [flushed3]
  unfold out0_3
  rw [View.canon_unit_zero zero3]
  simp only [View.ld_unit_zero (S := S1x256x4096) zero3, View.ld_unit_zero (S := S1x4096x16) zero3,
    View.ld_unit_zero (S := S1x16x4096) zero3]
  refine funext fun (j : S1x256x4096.Idx) => ?_
  obtain ⟨u, p, o, rfl⟩ : ∃ (u : Fin 1) (p : Fin 256) (o : Fin 4096), j = ix3 u p o := ⟨j 0, j 1, j 2, eq_ix3 j⟩
  show k0_pay1 (F := Ideal) (iblk m c 0 t) (iblk m c 1 t) (iblk m c 2 t) (ix3 u p o)
    = out (arrX m c) (arrA m c) (arrB m c) (((cfg0.win 3).blk t).view.emb (ix3 u p o))
  rw [emb3 t u p o, out_ix3]
  refine (pay_apply (iblk m c 0 t) (iblk m c 1 t) (iblk m c 2 t) u p o).trans ?_
  unfold outAt xa
  refine congrArg (· * two) (Finset.sum_congr rfl fun r _ => ?_)
  rw [read2 m c t, emb2 t r o]
  refine congrArg (· * arrB m c (ix3 (batchOf t) r o)) (Finset.sum_congr rfl fun k _ => ?_)
  rw [read0 m c t, read1 m c t, emb0 t p k, emb1 t k r]

/-- An index of the array is in point `t`'s block iff each coordinate is in the block's range on its axis. -/
theorem mem_blk3 (t : Fin cfg0.N) (i : S8x2048x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v49).slice (win0_3.rect t)).set ↔ _
  rw [View.set_slice_whole, Rect.mem_set_unit]
  exact Iff.rfl

/-- The blocks cover the array: index (b, r, o) lies in the block of the point with batch b and row tile r / 256. -/
theorem cover3 (i : S8x2048x4096.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := grid_onto ⟨(i 0).val, by omega⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- The result array after the run. -/
theorem final3 (c : Dev nD) :
    (dats m 0 c).arrAt 3 cfg0.N = out (arrX m c) (arrA m c) (arrB m c) :=
  (dats m 0 c).arrAt_eq_of_cover 3 (out (arrX m c) (arrA m c) (arrB m c))
    (fun t _ => flushed3_eq m c t) cover3

/-- x reaches the region as launched. -/
theorem arrX_eq (c : Dev nD) : arrX m c = m ((c : Thread nD τ).loc main_arg0) := V_main_arg0 m c

/-- Every weakly fair execution of the kernel's program terminates with its result at `out` of x and of the adapter arrays
    the host operations before the region compute, the arguments unchanged. -/
theorem run : θ_run defs (onTc (τ := τ) (main (F := Ideal))) ⟨m, fun _ => 0, ρ⟩ fun r => ∀ c : Dev nD,
      r.2.mem ((c : Thread nD τ).loc main_v49)
          = out (m ((c : Thread nD τ).loc main_arg0)) (arrA m c) (arrB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final3 m c).trans
      (congrArg (fun x => out x (arrA m c) (arrB m c)) (arrX_eq m c))), (h c).2⟩)
    (run_blocks m ρ)

end Cert.KernelIdeal.ArrayValue

end
-- ==== Proof.RefRun.lean ====
/-
  The reference's @main as one straight line of host operations, and its run.

  @main calls three small functions (the variance `_var`, which itself calls `_where`, and `relu`); a call runs the
  callee's operations on the call's own buffers, so @main is the line obtained by writing each callee's operations at its
  call site.  The line is cut in two: `glueOps`, the 81 operations that compute the two adapter arrays — layer norm of the
  control state, the two-layer routing network, the softmax gate, and the gate's products with `Wa` and `Wb` re-laid as
  [8, 4096, 16] and [8, 16, 4096] —, and `tailOps`, the five that apply them to `x`: two batched products, and the
  scaling by the constant 2.  `run_all`: every weakly fair execution of @main terminates with each buffer at the fold of
  the whole line over the launch contents.
-/
import proofs.«119206_j67353677136189_1_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations that compute the adapter arrays `main_v45` (A, [8, 4096, 16]) and `main_v48` (B, [8, 16, 4096]) from
    arguments 1 to 9, the callees' operations written at their call sites. -/
abbrev glueOps : List (HloOp τ sig (Elt F)) :=
  [ StableHlo.nullary main_cst (constant S_ .f32 0x00000000#32),
    StableHlo.binary main_arg1 main_cst main_v0 ((fun x v => Host.reduceAdd x v reducesTo_S8x256_S8_d1 h_S_) : (⟨S8x256, .f32⟩ : BufTy).Contents (Elt F) → (⟨S_, .f32⟩ : BufTy).Contents (Elt F) → (⟨S8, .f32⟩ : BufTy).Contents (Elt F)),
    StableHlo.unary main_v0 main_v1 (broadcastInDim S8x1 ![0] bcast_S8_S8x1_0 : (⟨S8, .f32⟩ : BufTy).Contents (Elt F) → (⟨S8x1, .f32⟩ : BufTy).Contents (Elt F)),
    StableHlo.nullary main_cst_0 (constant S_ .f32 0x43800000#32),
    StableHlo.unary main_cst_0 main_v2 (broadcastInDim S8x1 ![] bcast_S_S8x1 : (⟨S_, .f32⟩ : BufTy).Contents (Elt F) → (⟨S8x1, .f32⟩ : BufTy).Contents (Elt F)),
    StableHlo.binary main_v1 main_v2 main_v3 (Host.divf : (⟨S8x1, .f32⟩ : BufTy).Contents (Elt F) → (⟨S8x1, .f32⟩ : BufTy).Contents (Elt F) → (⟨S8x1, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg1 : StableHlo.TRef sig ⟨S8x256, .f32⟩) (.of main_call0_cst : StableHlo.TRef sig ⟨S_, .f32⟩) (.of main_call0_v0 : StableHlo.TRef sig ⟨S8, .f32⟩) (fun x v => Host.reduceAdd x v reducesTo_S8x256_S8_d1 h_S_),
    StableHlo.TRef.unary (.of main_call0_v0 : StableHlo.TRef sig ⟨S8, .f32⟩) (.of main_call0_v1 : StableHlo.TRef sig ⟨S8x1, .f32⟩) (broadcastInDim S8x1 ![0] bcast_S8_S8x1_0),
    StableHlo.TRef.nullary (.of main_call0_cst_0 : StableHlo.TRef sig ⟨S_, .f32⟩) (constant S_ .f32 0x43800000#32),
    StableHlo.TRef.unary (.of main_call0_cst_0 : StableHlo.TRef sig ⟨S_, .f32⟩) (.of main_call0_v2 : StableHlo.TRef sig ⟨S8x1, .f32⟩) (broadcastInDim S8x1 ![] bcast_S_S8x1),
    StableHlo.TRef.binary (.of main_call0_v1 : StableHlo.TRef sig ⟨S8x1, .f32⟩) (.of main_call0_v2 : StableHlo.TRef sig ⟨S8x1, .f32⟩) (.of main_call0_v3 : StableHlo.TRef sig ⟨S8x1, .f32⟩) Host.divf,
    StableHlo.TRef.unary (.of main_call0_v3 : StableHlo.TRef sig ⟨S8x1, .f32⟩) (.of main_call0_v4 : StableHlo.TRef sig ⟨S8x256, .f32⟩) (broadcastInDim S8x256 ![0, 1] bcast_S8x1_S8x256_0_1),
    StableHlo.TRef.binary (.of main_arg1 : StableHlo.TRef sig ⟨S8x256, .f32⟩) (.of main_call0_v4 : StableHlo.TRef sig ⟨S8x256, .f32⟩) (.of main_call0_v5 : StableHlo.TRef sig ⟨S8x256, .f32⟩) subf,
    StableHlo.TRef.binary (.of main_call0_v5 : StableHlo.TRef sig ⟨S8x256, .f32⟩) (.of main_call0_v5 : StableHlo.TRef sig ⟨S8x256, .f32⟩) (.of main_call0_v6 : StableHlo.TRef sig ⟨S8x256, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x43800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8x256, .f32⟩) (.of main_call0_cst_2 : StableHlo.TRef sig ⟨S_, .f32⟩) (.of main_call0_v9 : StableHlo.TRef sig ⟨S8, .f32⟩) (fun x v => Host.reduceAdd x v reducesTo_S8x256_S8_d1 h_S_),
    StableHlo.TRef.unary (.of main_call0_v9 : StableHlo.TRef sig ⟨S8, .f32⟩) (.of main_call0_v10 : StableHlo.TRef sig ⟨S8x1, .f32⟩) (broadcastInDim S8x1 ![0] bcast_S8_S8x1_0),
    StableHlo.TRef.unary (.of main_call0_v8 : StableHlo.TRef sig ⟨S_, .f32⟩) (.of main_call0_v11 : StableHlo.TRef sig ⟨S8x1, .f32⟩) (broadcastInDim S8x1 ![] bcast_S_S8x1),
    StableHlo.TRef.binary (.of main_call0_v10 : StableHlo.TRef sig ⟨S8x1, .f32⟩) (.of main_call0_v11 : StableHlo.TRef sig ⟨S8x1, .f32⟩) (.of main_call0_v12 : StableHlo.TRef sig ⟨S8x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S8x1, .f32⟩) (broadcastInDim S8x1 ![] bcast_S_S8x1),
    StableHlo.TRef.ternary (.of main_call0_v13 : StableHlo.TRef sig ⟨S_, .i1⟩) (.of main_call0_v12 : StableHlo.TRef sig ⟨S8x1, .f32⟩) (.of main_call0_call0_v1 : StableHlo.TRef sig ⟨S8x1, .f32⟩) (.of main_v4 : StableHlo.TRef sig ⟨S8x1, .f32⟩) (fun p a b => select (broadcastInDim S8x1 ![] bcast_S_S8x1 p) a b),
    StableHlo.unary main_v3 main_v5 (broadcastInDim S8x256 ![0, 1] bcast_S8x1_S8x256_0_1 : (⟨S8x1, .f32⟩ : BufTy).Contents (Elt F) → (⟨S8x256, .f32⟩ : BufTy).Contents (Elt F)),
    StableHlo.binary main_arg1 main_v5 main_v6 (subf : (⟨S8x256, .f32⟩ : BufTy).Contents (Elt F) → (⟨S8x256, .f32⟩ : BufTy).Contents (Elt F) → (⟨S8x256, .f32⟩ : BufTy).Contents (Elt F)),
    StableHlo.nullary main_cst_1 (constant S_ .f32 0x3727C5AC#32),
    StableHlo.unary main_cst_1 main_v7 (broadcastInDim S8x1 ![] bcast_S_S8x1 : (⟨S_, .f32⟩ : BufTy).Contents (Elt F) → (⟨S8x1, .f32⟩ : BufTy).Contents (Elt F)),
    StableHlo.binary main_v4 main_v7 main_v8 (addf : (⟨S8x1, .f32⟩ : BufTy).Contents (Elt F) → (⟨S8x1, .f32⟩ : BufTy).Contents (Elt F) → (⟨S8x1, .f32⟩ : BufTy).Contents (Elt F)),
    StableHlo.unary main_v8 main_v9 (Host.rsqrt : (⟨S8x1, .f32⟩ : BufTy).Contents (Elt F) → (⟨S8x1, .f32⟩ : BufTy).Contents (Elt F)),
    StableHlo.unary main_v9 main_v10 (broadcastInDim S8x256 ![0, 1] bcast_S8x1_S8x256_0_1 : (⟨S8x1, .f32⟩ : BufTy).Contents (Elt F) → (⟨S8x256, .f32⟩ : BufTy).Contents (Elt F)),
    StableHlo.binary main_v6 main_v10 main_v11 (mulf : (⟨S8x256, .f32⟩ : BufTy).Contents (Elt F) → (⟨S8x256, .f32⟩ : BufTy).Contents (Elt F) → (⟨S8x256, .f32⟩ : BufTy).Contents (Elt F)),
    StableHlo.unary main_arg2 main_v12 (broadcastInDim S1x256 ![1] bcast_S256_S1x256_1 : (⟨S256, .f32⟩ : BufTy).Contents (Elt F) → (⟨S1x256, .f32⟩ : BufTy).Contents (Elt F)),
    StableHlo.unary main_v12 main_v13 (broadcastInDim S8x256 ![0, 1] bcast_S1x256_S8x256_0_1 : (⟨S1x256, .f32⟩ : BufTy).Contents (Elt F) → (⟨S8x256, .f32⟩ : BufTy).Contents (Elt F)),
    StableHlo.binary main_v11 main_v13 main_v14 (mulf : (⟨S8x256, .f32⟩ : BufTy).Contents (Elt F) → (⟨S8x256, .f32⟩ : BufTy).Contents (Elt F) → (⟨S8x256, .f32⟩ : BufTy).Contents (Elt F)),
    StableHlo.unary main_arg3 main_v15 (broadcastInDim S1x256 ![1] bcast_S256_S1x256_1 : (⟨S256, .f32⟩ : BufTy).Contents (Elt F) → (⟨S1x256, .f32⟩ : BufTy).Contents (Elt F)),
    StableHlo.unary main_v15 main_v16 (broadcastInDim S8x256 ![0, 1] bcast_S1x256_S8x256_0_1 : (⟨S1x256, .f32⟩ : BufTy).Contents (Elt F) → (⟨S8x256, .f32⟩ : BufTy).Contents (Elt F)),
    StableHlo.binary main_v14 main_v16 main_v17 (addf : (⟨S8x256, .f32⟩ : BufTy).Contents (Elt F) → (⟨S8x256, .f32⟩ : BufTy).Contents (Elt F) → (⟨S8x256, .f32⟩ : BufTy).Contents (Elt F)),
    StableHlo.unary main_arg4 main_v18 ((transpose S256x60 [1, 0] · transposes_S60x256_S256x60_1_0) : (⟨S60x256, .f32⟩ : BufTy).Contents (Elt F) → (⟨S256x60, .f32⟩ : BufTy).Contents (Elt F)),
    StableHlo.binary main_v17 main_v18 main_v19 ((fun l r => Host.dotGeneral dot_S8x256_S256x60_S8x60_1_0_0_1_n_n none l r) : (⟨S8x256, .f32⟩ : BufTy).Contents (Elt F) → (⟨S256x60, .f32⟩ : BufTy).Contents (Elt F) → (⟨S8x60, .f32⟩ : BufTy).Contents (Elt F)),
    StableHlo.unary main_arg5 main_v20 (broadcastInDim S1x60 ![1] bcast_S60_S1x60_1 : (⟨S60, .f32⟩ : BufTy).Contents (Elt F) → (⟨S1x60, .f32⟩ : BufTy).Contents (Elt F)),
    StableHlo.unary main_v20 main_v21 (broadcastInDim S8x60 ![0, 1] bcast_S1x60_S8x60_0_1 : (⟨S1x60, .f32⟩ : BufTy).Contents (Elt F) → (⟨S8x60, .f32⟩ : BufTy).Contents (Elt F)),
    StableHlo.binary main_v19 main_v21 main_v22 (addf : (⟨S8x60, .f32⟩ : BufTy).Contents (Elt F) → (⟨S8x60, .f32⟩ : BufTy).Contents (Elt F) → (⟨S8x60, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8x60, .f32⟩) (broadcastInDim S8x60 ![] bcast_S_S8x60),
    StableHlo.TRef.binary (.of main_v22 : StableHlo.TRef sig ⟨S8x60, .f32⟩) (.of main_call1_v0 : StableHlo.TRef sig ⟨S8x60, .f32⟩) (.of main_v23 : StableHlo.TRef sig ⟨S8x60, .f32⟩) maximumf,
    StableHlo.unary main_arg6 main_v24 ((transpose S60x16 [1, 0] · transposes_S16x60_S60x16_1_0) : (⟨S16x60, .f32⟩ : BufTy).Contents (Elt F) → (⟨S60x16, .f32⟩ : BufTy).Contents (Elt F)),
    StableHlo.binary main_v23 main_v24 main_v25 ((fun l r => Host.dotGeneral dot_S8x60_S60x16_S8x16_1_0_0_1_n_n none l r) : (⟨S8x60, .f32⟩ : BufTy).Contents (Elt F) → (⟨S60x16, .f32⟩ : BufTy).Contents (Elt F) → (⟨S8x16, .f32⟩ : BufTy).Contents (Elt F)),
    StableHlo.unary main_arg7 main_v26 (broadcastInDim S1x16 ![1] bcast_S16_S1x16_1 : (⟨S16, .f32⟩ : BufTy).Contents (Elt F) → (⟨S1x16, .f32⟩ : BufTy).Contents (Elt F)),
    StableHlo.unary main_v26 main_v27 (broadcastInDim S8x16 ![0, 1] bcast_S1x16_S8x16_0_1 : (⟨S1x16, .f32⟩ : BufTy).Contents (Elt F) → (⟨S8x16, .f32⟩ : BufTy).Contents (Elt F)),
    StableHlo.binary main_v25 main_v27 main_v28 (addf : (⟨S8x16, .f32⟩ : BufTy).Contents (Elt F) → (⟨S8x16, .f32⟩ : BufTy).Contents (Elt F) → (⟨S8x16, .f32⟩ : BufTy).Contents (Elt F)),
    StableHlo.nullary main_cst_2 (constant S_ .f32 0x3F800000#32),
    StableHlo.unary main_cst_2 main_v29 (broadcastInDim S8x16 ![] bcast_S_S8x16 : (⟨S_, .f32⟩ : BufTy).Contents (Elt F) → (⟨S8x16, .f32⟩ : BufTy).Contents (Elt F)),
    StableHlo.binary main_v28 main_v29 main_v30 (Host.divf : (⟨S8x16, .f32⟩ : BufTy).Contents (Elt F) → (⟨S8x16, .f32⟩ : BufTy).Contents (Elt F) → (⟨S8x16, .f32⟩ : BufTy).Contents (Elt F)),
    StableHlo.nullary main_cst_3 (constant S_ .f32 0xFF800000#32),
    StableHlo.binary main_v30 main_cst_3 main_v31 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.nullary main_cst_4 (constant S_ .f32 0xFF800000#32),
    StableHlo.unary main_cst_4 main_v32 (broadcastInDim S8 ![] bcast_S_S8 : (⟨S_, .f32⟩ : BufTy).Contents (Elt F) → (⟨S8, .f32⟩ : BufTy).Contents (Elt F)),
    StableHlo.binary main_v32 main_v31 main_v33 (maximumf : (⟨S8, .f32⟩ : BufTy).Contents (Elt F) → (⟨S8, .f32⟩ : BufTy).Contents (Elt F) → (⟨S8, .f32⟩ : BufTy).Contents (Elt F)),
    StableHlo.unary main_v33 main_v34 (broadcastInDim S8x1 ![0] bcast_S8_S8x1_0 : (⟨S8, .f32⟩ : BufTy).Contents (Elt F) → (⟨S8x1, .f32⟩ : BufTy).Contents (Elt F)),
    StableHlo.unary main_v34 main_v35 (broadcastInDim S8x16 ![0, 1] bcast_S8x1_S8x16_0_1 : (⟨S8x1, .f32⟩ : BufTy).Contents (Elt F) → (⟨S8x16, .f32⟩ : BufTy).Contents (Elt F)),
    StableHlo.binary main_v30 main_v35 main_v36 (subf : (⟨S8x16, .f32⟩ : BufTy).Contents (Elt F) → (⟨S8x16, .f32⟩ : BufTy).Contents (Elt F) → (⟨S8x16, .f32⟩ : BufTy).Contents (Elt F)),
    StableHlo.unary main_v36 main_v37 (Host.exp : (⟨S8x16, .f32⟩ : BufTy).Contents (Elt F) → (⟨S8x16, .f32⟩ : BufTy).Contents (Elt F)),
    StableHlo.nullary main_cst_5 (constant S_ .f32 0x00000000#32),
    StableHlo.binary main_v37 main_cst_5 main_v38 ((fun x v => Host.reduceAdd x v reducesTo_S8x16_S8_d1 h_S_) : (⟨S8x16, .f32⟩ : BufTy).Contents (Elt F) → (⟨S_, .f32⟩ : BufTy).Contents (Elt F) → (⟨S8, .f32⟩ : BufTy).Contents (Elt F)),
    StableHlo.unary main_v38 main_v39 (broadcastInDim S8x1 ![0] bcast_S8_S8x1_0 : (⟨S8, .f32⟩ : BufTy).Contents (Elt F) → (⟨S8x1, .f32⟩ : BufTy).Contents (Elt F)),
    StableHlo.unary main_v39 main_v40 (broadcastInDim S8x16 ![0, 1] bcast_S8x1_S8x16_0_1 : (⟨S8x1, .f32⟩ : BufTy).Contents (Elt F) → (⟨S8x16, .f32⟩ : BufTy).Contents (Elt F)),
    StableHlo.binary main_v37 main_v40 main_v41 (Host.divf : (⟨S8x16, .f32⟩ : BufTy).Contents (Elt F) → (⟨S8x16, .f32⟩ : BufTy).Contents (Elt F) → (⟨S8x16, .f32⟩ : BufTy).Contents (Elt F)),
    StableHlo.unary main_arg8 main_v42 ((transpose S16x65536 [1, 0] · transposes_S65536x16_S16x65536_1_0) : (⟨S65536x16, .f32⟩ : BufTy).Contents (Elt F) → (⟨S16x65536, .f32⟩ : BufTy).Contents (Elt F)),
    StableHlo.binary main_v41 main_v42 main_v43 ((fun l r => Host.dotGeneral dot_S8x16_S16x65536_S8x65536_1_0_0_1_n_n none l r) : (⟨S8x16, .f32⟩ : BufTy).Contents (Elt F) → (⟨S16x65536, .f32⟩ : BufTy).Contents (Elt F) → (⟨S8x65536, .f32⟩ : BufTy).Contents (Elt F)),
    StableHlo.reshape main_v43 main_v44 rfl shapeCasts_S8x65536_S8x16x4096,
    StableHlo.unary main_v44 main_v45 ((transpose S8x4096x16 [0, 2, 1] · transposes_S8x16x4096_S8x4096x16_0_2_1) : (⟨S8x16x4096, .f32⟩ : BufTy).Contents (Elt F) → (⟨S8x4096x16, .f32⟩ : BufTy).Contents (Elt F)),
    StableHlo.unary main_arg9 main_v46 ((transpose S16x65536 [1, 0] · transposes_S65536x16_S16x65536_1_0) : (⟨S65536x16, .f32⟩ : BufTy).Contents (Elt F) → (⟨S16x65536, .f32⟩ : BufTy).Contents (Elt F)),
    StableHlo.binary main_v41 main_v46 main_v47 ((fun l r => Host.dotGeneral dot_S8x16_S16x65536_S8x65536_1_0_0_1_n_n none l r) : (⟨S8x16, .f32⟩ : BufTy).Contents (Elt F) → (⟨S16x65536, .f32⟩ : BufTy).Contents (Elt F) → (⟨S8x65536, .f32⟩ : BufTy).Contents (Elt F)),
    StableHlo.reshape main_v47 main_v48 rfl shapeCasts_S8x65536_S8x16x4096 ]

/-- The operations that apply the adapters: `x · A` and `(x · A) · B`, batched over the leading axis, then the product with
    the splat of the constant 2. -/
abbrev tailOps : List (HloOp τ sig (Elt F)) :=
  [ StableHlo.binary main_arg0 main_v45 main_v49 ((fun l r => Host.dotGeneral dot_S8x2048x4096_S8x4096x16_S8x2048x16_2_1_1_2_0_0 none l r) : (⟨S8x2048x4096, .f32⟩ : BufTy).Contents (Elt F) → (⟨S8x4096x16, .f32⟩ : BufTy).Contents (Elt F) → (⟨S8x2048x16, .f32⟩ : BufTy).Contents (Elt F)),
    StableHlo.binary main_v49 main_v48 main_v50 ((fun l r => Host.dotGeneral dot_S8x2048x16_S8x16x4096_S8x2048x4096_2_1_1_2_0_0 none l r) : (⟨S8x2048x16, .f32⟩ : BufTy).Contents (Elt F) → (⟨S8x16x4096, .f32⟩ : BufTy).Contents (Elt F) → (⟨S8x2048x4096, .f32⟩ : BufTy).Contents (Elt F)),
    StableHlo.nullary main_cst_6 (constant S_ .f32 0x40000000#32),
    StableHlo.unary main_cst_6 main_v51 (broadcastInDim S8x2048x4096 ![] bcast_S_S8x2048x4096 : (⟨S_, .f32⟩ : BufTy).Contents (Elt F) → (⟨S8x2048x4096, .f32⟩ : BufTy).Contents (Elt F)),
    StableHlo.binary main_v50 main_v51 main_v52 (mulf : (⟨S8x2048x4096, .f32⟩ : BufTy).Contents (Elt F) → (⟨S8x2048x4096, .f32⟩ : BufTy).Contents (Elt F) → (⟨S8x2048x4096, .f32⟩ : BufTy).Contents (Elt F)) ]

/-- @main's whole line. -/
abbrev ops : List (HloOp τ sig (Elt F)) := glueOps ++ tailOps

/-- @main is that line: unfolding the three functions at their calls and reassociating the sequencing is definitional,
    and is left to the kernel's check of this equation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem glueOps_sub : (glueOps : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., binary_bufs_sub .., reshape_bufs_sub .., unary_bufs_sub ..,
    unary_bufs_sub .., binary_bufs_sub .., reshape_bufs_sub ..⟩

theorem tailOps_sub : (tailOps : List (HloOp τ sig (Elt F))).Forall fun op => op.bufs ⊆ tcRefs τ sig :=
  ⟨binary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp glueOps_sub op) (List.forall_iff_forall_mem.mp tailOps_sub op)

/-- Every weakly fair execution of @main terminates, and every final state has each TensorCore buffer at the line's fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  The reference's value at the ideal values.

  Its last five operations are two batched products — x·A over the 4096 axis, then that by B over the 16 ranks, batch by
  batch — and the product with the splat of 2.  A host product at the ideal values is the plain sum over its contracted
  axis, the batch axis read at the result's leading coordinate on both operands; so the result is the specification's
  `out` of x and of the two adapter arrays as the glue operations leave them.
-/
import proofs.«119206_j67353677136189_1_alg».proof.Proof.RefRun
import proofs.«119206_j67353677136189_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.HandRun Idealize.ShloMosaic Idealize.ShloMosaic.TcCoe Idealize.SL.Sem
open Idealize.ShloMosaic.StableHlo Idealize.ShloMosaic.ValueIdx Cert.Lowrank

/-! ## x · A: [8, 2048, 4096] × [8, 4096, 16], batched over axis 0, contracting the 4096 axis -/

theorem lhs_xa_0 (i : S8x2048x16.Idx) (q : dot_S8x2048x4096_S8x4096x16_S8x2048x16_2_1_1_2_0_0.contr.Idx) :
    (dot_S8x2048x4096_S8x4096x16_S8x2048x16_2_1_1_2_0_0.lhsIdx i q 0).val = (i 0).val := by
  unfold DotDims.lhsIdx
  rw [dif_pos (show (0 : Fin S8x2048x4096.rank) ∈ dot_S8x2048x4096_S8x4096x16_S8x2048x16_2_1_1_2_0_0.lhsBatch by decide)]
  rfl
theorem lhs_xa_1 (i : S8x2048x16.Idx) (q : dot_S8x2048x4096_S8x4096x16_S8x2048x16_2_1_1_2_0_0.contr.Idx) :
    (dot_S8x2048x4096_S8x4096x16_S8x2048x16_2_1_1_2_0_0.lhsIdx i q 1).val = (i 1).val := by
  unfold DotDims.lhsIdx
  rw [dif_neg (show ¬(1 : Fin S8x2048x4096.rank) ∈ dot_S8x2048x4096_S8x4096x16_S8x2048x16_2_1_1_2_0_0.lhsBatch by decide), dif_pos (show (1 : Fin S8x2048x4096.rank) ∈ dot_S8x2048x4096_S8x4096x16_S8x2048x16_2_1_1_2_0_0.lhsNonContracting by decide)]
  rfl
theorem lhs_xa_2 (i : S8x2048x16.Idx) (q : dot_S8x2048x4096_S8x4096x16_S8x2048x16_2_1_1_2_0_0.contr.Idx) :
    (dot_S8x2048x4096_S8x4096x16_S8x2048x16_2_1_1_2_0_0.lhsIdx i q 2).val = (q ⟨0, by decide⟩).val :=
  dot_S8x2048x4096_S8x4096x16_S8x2048x16_2_1_1_2_0_0.lhsIdx_val_of_single rfl i q
theorem rhs_xa_0 (i : S8x2048x16.Idx) (q : dot_S8x2048x4096_S8x4096x16_S8x2048x16_2_1_1_2_0_0.contr.Idx) :
    (dot_S8x2048x4096_S8x4096x16_S8x2048x16_2_1_1_2_0_0.rhsIdx i q 0).val = (i 0).val := by
  unfold DotDims.rhsIdx
  rw [dif_pos (show (0 : Fin S8x4096x16.rank) ∈ dot_S8x2048x4096_S8x4096x16_S8x2048x16_2_1_1_2_0_0.rhsBatch by decide)]
  rfl
theorem rhs_xa_1 (i : S8x2048x16.Idx) (q : dot_S8x2048x4096_S8x4096x16_S8x2048x16_2_1_1_2_0_0.contr.Idx) :
    (dot_S8x2048x4096_S8x4096x16_S8x2048x16_2_1_1_2_0_0.rhsIdx i q 1).val = (q ⟨0, by decide⟩).val :=
  dot_S8x2048x4096_S8x4096x16_S8x2048x16_2_1_1_2_0_0.rhsIdx_val_of_single rfl i q
theorem rhs_xa_2 (i : S8x2048x16.Idx) (q : dot_S8x2048x4096_S8x4096x16_S8x2048x16_2_1_1_2_0_0.contr.Idx) :
    (dot_S8x2048x4096_S8x4096x16_S8x2048x16_2_1_1_2_0_0.rhsIdx i q 2).val = (i 2).val := by
  unfold DotDims.rhsIdx
  rw [dif_neg (show ¬(2 : Fin S8x4096x16.rank) ∈ dot_S8x2048x4096_S8x4096x16_S8x2048x16_2_1_1_2_0_0.rhsBatch by decide), dif_pos (show (2 : Fin S8x4096x16.rank) ∈ dot_S8x2048x4096_S8x4096x16_S8x2048x16_2_1_1_2_0_0.rhsNonContracting by decide)]
  rfl

/-- Entry (b, p, c) of the first product is the sum over k of l[b, p, k] · r[b, k, c]. -/
theorem xa_apply (l : FVec Ideal S8x2048x4096 .f32) (r : FVec Ideal S8x4096x16 .f32) (b : Fin 8) (p : Fin 2048) (c : Fin 16) :
    Host.dotGeneral dot_S8x2048x4096_S8x4096x16_S8x2048x16_2_1_1_2_0_0 none l r (ix3 b p c) = ∑ k : Fin 4096, l (ix3 b p k) * r (ix3 b k c) := by
  simp only [Host.dotGeneral]
  rw [Ideal.dotGeneral_apply, ← Equiv.sum_comp (contrEquiv1 dot_S8x2048x4096_S8x4096x16_S8x2048x16_2_1_1_2_0_0 4096 rfl rfl).symm]
  refine Finset.sum_congr rfl fun k _ => ?_
  have hk := contrEquiv1_symm_val dot_S8x2048x4096_S8x4096x16_S8x2048x16_2_1_1_2_0_0 4096 rfl rfl k
  have el : dot_S8x2048x4096_S8x4096x16_S8x2048x16_2_1_1_2_0_0.lhsIdx (ix3 b p c) ((contrEquiv1 dot_S8x2048x4096_S8x4096x16_S8x2048x16_2_1_1_2_0_0 4096 rfl rfl).symm k) = ix3 b p k := funext fun a => Fin.ext (by
    match a with
    | ⟨0, _⟩ => exact lhs_xa_0 _ _
    | ⟨1, _⟩ => exact lhs_xa_1 _ _
    | ⟨2, _⟩ => exact (lhs_xa_2 _ _).trans hk)
  have er : dot_S8x2048x4096_S8x4096x16_S8x2048x16_2_1_1_2_0_0.rhsIdx (ix3 b p c) ((contrEquiv1 dot_S8x2048x4096_S8x4096x16_S8x2048x16_2_1_1_2_0_0 4096 rfl rfl).symm k) = ix3 b k c := funext fun a => Fin.ext (by
    match a with
    | ⟨0, _⟩ => exact rhs_xa_0 _ _
    | ⟨1, _⟩ => exact (rhs_xa_1 _ _).trans hk
    | ⟨2, _⟩ => exact rhs_xa_2 _ _)
  rw [el, er]

/-! ## (x · A) · B: [8, 2048, 16] × [8, 16, 4096], batched over axis 0, contracting the rank axis -/

theorem lhs_xab_0 (i : S8x2048x4096.Idx) (q : dot_S8x2048x16_S8x16x4096_S8x2048x4096_2_1_1_2_0_0.contr.Idx) :
    (dot_S8x2048x16_S8x16x4096_S8x2048x4096_2_1_1_2_0_0.lhsIdx i q 0).val = (i 0).val := by
  unfold DotDims.lhsIdx
  rw [dif_pos (show (0 : Fin S8x2048x16.rank) ∈ dot_S8x2048x16_S8x16x4096_S8x2048x4096_2_1_1_2_0_0.lhsBatch by decide)]
  rfl
theorem lhs_xab_1 (i : S8x2048x4096.Idx) (q : dot_S8x2048x16_S8x16x4096_S8x2048x4096_2_1_1_2_0_0.contr.Idx) :
    (dot_S8x2048x16_S8x16x4096_S8x2048x4096_2_1_1_2_0_0.lhsIdx i q 1).val = (i 1).val := by
  unfold DotDims.lhsIdx
  rw [dif_neg (show ¬(1 : Fin S8x2048x16.rank) ∈ dot_S8x2048x16_S8x16x4096_S8x2048x4096_2_1_1_2_0_0.lhsBatch by decide), dif_pos (show (1 : Fin S8x2048x16.rank) ∈ dot_S8x2048x16_S8x16x4096_S8x2048x4096_2_1_1_2_0_0.lhsNonContracting by decide)]
  rfl
theorem lhs_xab_2 (i : S8x2048x4096.Idx) (q : dot_S8x2048x16_S8x16x4096_S8x2048x4096_2_1_1_2_0_0.contr.Idx) :
    (dot_S8x2048x16_S8x16x4096_S8x2048x4096_2_1_1_2_0_0.lhsIdx i q 2).val = (q ⟨0, by decide⟩).val :=
  dot_S8x2048x16_S8x16x4096_S8x2048x4096_2_1_1_2_0_0.lhsIdx_val_of_single rfl i q
theorem rhs_xab_0 (i : S8x2048x4096.Idx) (q : dot_S8x2048x16_S8x16x4096_S8x2048x4096_2_1_1_2_0_0.contr.Idx) :
    (dot_S8x2048x16_S8x16x4096_S8x2048x4096_2_1_1_2_0_0.rhsIdx i q 0).val = (i 0).val := by
  unfold DotDims.rhsIdx
  rw [dif_pos (show (0 : Fin S8x16x4096.rank) ∈ dot_S8x2048x16_S8x16x4096_S8x2048x4096_2_1_1_2_0_0.rhsBatch by decide)]
  rfl
theorem rhs_xab_1 (i : S8x2048x4096.Idx) (q : dot_S8x2048x16_S8x16x4096_S8x2048x4096_2_1_1_2_0_0.contr.Idx) :
    (dot_S8x2048x16_S8x16x4096_S8x2048x4096_2_1_1_2_0_0.rhsIdx i q 1).val = (q ⟨0, by decide⟩).val :=
  dot_S8x2048x16_S8x16x4096_S8x2048x4096_2_1_1_2_0_0.rhsIdx_val_of_single rfl i q
theorem rhs_xab_2 (i : S8x2048x4096.Idx) (q : dot_S8x2048x16_S8x16x4096_S8x2048x4096_2_1_1_2_0_0.contr.Idx) :
    (dot_S8x2048x16_S8x16x4096_S8x2048x4096_2_1_1_2_0_0.rhsIdx i q 2).val = (i 2).val := by
  unfold DotDims.rhsIdx
  rw [dif_neg (show ¬(2 : Fin S8x16x4096.rank) ∈ dot_S8x2048x16_S8x16x4096_S8x2048x4096_2_1_1_2_0_0.rhsBatch by decide), dif_pos (show (2 : Fin S8x16x4096.rank) ∈ dot_S8x2048x16_S8x16x4096_S8x2048x4096_2_1_1_2_0_0.rhsNonContracting by decide)]
  rfl

/-- Entry (b, p, c) of the second product is the sum over the 16 ranks of l[b, p, r] · r[b, r, c]. -/
theorem xab_apply (l : FVec Ideal S8x2048x16 .f32) (r : FVec Ideal S8x16x4096 .f32) (b : Fin 8) (p : Fin 2048) (c : Fin 4096) :
    Host.dotGeneral dot_S8x2048x16_S8x16x4096_S8x2048x4096_2_1_1_2_0_0 none l r (ix3 b p c) = ∑ k : Fin 16, l (ix3 b p k) * r (ix3 b k c) := by
  simp only [Host.dotGeneral]
  rw [Ideal.dotGeneral_apply, ← Equiv.sum_comp (contrEquiv1 dot_S8x2048x16_S8x16x4096_S8x2048x4096_2_1_1_2_0_0 16 rfl rfl).symm]
  refine Finset.sum_congr rfl fun k _ => ?_
  have hk := contrEquiv1_symm_val dot_S8x2048x16_S8x16x4096_S8x2048x4096_2_1_1_2_0_0 16 rfl rfl k
  have el : dot_S8x2048x16_S8x16x4096_S8x2048x4096_2_1_1_2_0_0.lhsIdx (ix3 b p c) ((contrEquiv1 dot_S8x2048x16_S8x16x4096_S8x2048x4096_2_1_1_2_0_0 16 rfl rfl).symm k) = ix3 b p k := funext fun a => Fin.ext (by
    match a with
    | ⟨0, _⟩ => exact lhs_xab_0 _ _
    | ⟨1, _⟩ => exact lhs_xab_1 _ _
    | ⟨2, _⟩ => exact (lhs_xab_2 _ _).trans hk)
  have er : dot_S8x2048x16_S8x16x4096_S8x2048x4096_2_1_1_2_0_0.rhsIdx (ix3 b p c) ((contrEquiv1 dot_S8x2048x16_S8x16x4096_S8x2048x4096_2_1_1_2_0_0 16 rfl rfl).symm k) = ix3 b k c := funext fun a => Fin.ext (by
    match a with
    | ⟨0, _⟩ => exact rhs_xab_0 _ _
    | ⟨1, _⟩ => exact (rhs_xab_1 _ _).trans hk
    | ⟨2, _⟩ => exact rhs_xab_2 _ _)
  rw [el, er]

/-! ## The tail of the line -/

/-- The two products and the scaling are the specification's `out`. -/
theorem prod_eq (x : FVec Ideal S8x2048x4096 .f32) (A : FVec Ideal S8x4096x16 .f32) (B : FVec Ideal S8x16x4096 .f32) :
    mulf (Host.dotGeneral dot_S8x2048x16_S8x16x4096_S8x2048x4096_2_1_1_2_0_0 none (Host.dotGeneral dot_S8x2048x4096_S8x4096x16_S8x2048x16_2_1_1_2_0_0 none x A) B)
        (broadcastInDim S8x2048x4096 ![] bcast_S_S8x2048x4096 (constant (F := Ideal) S_ .f32 0x40000000#32))
      = out x A B := by
  funext i
  obtain ⟨b, s, o, rfl⟩ : ∃ (b : Fin 8) (s : Fin 2048) (o : Fin 4096), i = ix3 b s o := ⟨i 0, i 1, i 2, eq_ix3 i⟩
  rw [mulf_apply, xab_apply, broadcastInDim_apply _ _ _ _ ix0 (fun a => a.elim0), constant_apply, out_ix3]
  simp only [xa_apply]
  rfl

/-- The tail's result from any contents: `out` of x and the two adapter arrays as it finds them. -/
theorem tail_value (W : Valuation τ sig (Elt Ideal)) :
    after (tailOps (F := Ideal)) W (main_v52 : DevRef τ sig)
      = out (W (main_arg0 : DevRef τ sig)) (W (main_v45 : DevRef τ sig)) (W (main_v48 : DevRef τ sig)) := by
  refine Eq.trans ?_ (prod_eq _ _ _)
  after_results

/-- The glue operations do not write x. -/
theorem glue_arg0 (W : Valuation τ sig (Elt Ideal)) :
    after (glueOps (F := Ideal)) W (main_arg0 : DevRef τ sig) = W (main_arg0 : DevRef τ sig) := by
  after_results_simp

/-- The whole line's result: `out` of x and of the adapter arrays the glue operations compute. -/
theorem out_value (W : Valuation τ sig (Elt Ideal)) :
    after (ops (F := Ideal)) W (main_v52 : DevRef τ sig)
      = out (W (main_arg0 : DevRef τ sig)) (after (glueOps (F := Ideal)) W (main_v45 : DevRef τ sig))
          (after (glueOps (F := Ideal)) W (main_v48 : DevRef τ sig)) := by
  show after (glueOps ++ tailOps) W _ = _
  rw [StableHlo.after_append, tail_value, glue_arg0]

/-! ## No operation writes an argument -/

theorem kept_arg0 (W : Valuation τ sig (Elt Ideal)) :
    after (ops (F := Ideal)) W (main_arg0 : DevRef τ sig) = W (main_arg0 : DevRef τ sig) := by
  simp only [ops, glueOps, tailOps, List.cons_append, List.nil_append]
  after_results_simp
theorem kept_arg1 (W : Valuation τ sig (Elt Ideal)) :
    after (ops (F := Ideal)) W (main_arg1 : DevRef τ sig) = W (main_arg1 : DevRef τ sig) := by
  simp only [ops, glueOps, tailOps, List.cons_append, List.nil_append]
  after_results_simp
theorem kept_arg2 (W : Valuation τ sig (Elt Ideal)) :
    after (ops (F := Ideal)) W (main_arg2 : DevRef τ sig) = W (main_arg2 : DevRef τ sig) := by
  simp only [ops, glueOps, tailOps, List.cons_append, List.nil_append]
  after_results_simp
theorem kept_arg3 (W : Valuation τ sig (Elt Ideal)) :
    after (ops (F := Ideal)) W (main_arg3 : DevRef τ sig) = W (main_arg3 : DevRef τ sig) := by
  simp only [ops, glueOps, tailOps, List.cons_append, List.nil_append]
  after_results_simp
theorem kept_arg4 (W : Valuation τ sig (Elt Ideal)) :
    after (ops (F := Ideal)) W (main_arg4 : DevRef τ sig) = W (main_arg4 : DevRef τ sig) := by
  simp only [ops, glueOps, tailOps, List.cons_append, List.nil_append]
  after_results_simp
theorem kept_arg5 (W : Valuation τ sig (Elt Ideal)) :
    after (ops (F := Ideal)) W (main_arg5 : DevRef τ sig) = W (main_arg5 : DevRef τ sig) := by
  simp only [ops, glueOps, tailOps, List.cons_append, List.nil_append]
  after_results_simp
theorem kept_arg6 (W : Valuation τ sig (Elt Ideal)) :
    after (ops (F := Ideal)) W (main_arg6 : DevRef τ sig) = W (main_arg6 : DevRef τ sig) := by
  simp only [ops, glueOps, tailOps, List.cons_append, List.nil_append]
  after_results_simp
theorem kept_arg7 (W : Valuation τ sig (Elt Ideal)) :
    after (ops (F := Ideal)) W (main_arg7 : DevRef τ sig) = W (main_arg7 : DevRef τ sig) := by
  simp only [ops, glueOps, tailOps, List.cons_append, List.nil_append]
  after_results_simp
theorem kept_arg8 (W : Valuation τ sig (Elt Ideal)) :
    after (ops (F := Ideal)) W (main_arg8 : DevRef τ sig) = W (main_arg8 : DevRef τ sig) := by
  simp only [ops, glueOps, tailOps, List.cons_append, List.nil_append]
  after_results_simp
theorem kept_arg9 (W : Valuation τ sig (Elt Ideal)) :
    after (ops (F := Ideal)) W (main_arg9 : DevRef τ sig) = W (main_arg9 : DevRef τ sig) := by
  simp only [ops, glueOps, tailOps, List.cons_append, List.nil_append]
  after_results_simp

/-- Every weakly fair execution of the reference terminates with its result at `out` of x and the adapter arrays, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52)
          = out (m ((c.tc : Thread nD τ).loc main_arg0)) (after (glueOps (F := Ideal)) (launchContents m c) (main_v45 : DevRef τ sig))
              (after (glueOps (F := Ideal)) (launchContents m c) (main_v48 : DevRef τ sig))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v52).trans (out_value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c))⟩)
    (run_all m ρ)

end Cert.ReferenceIdeal.RefValue

end
-- ==== Proof.Glue.lean ====
/-
  The two programs compute the adapter arrays alike.

  Before the kernel's region, and before the reference's products, both programs run the same operations on arguments 1
  to 9: the layer norm of the control state, the two-layer routing network with its relu, the softmax gate, and the gate's
  products with `Wa` and `Wb` re-laid as A : [8, 4096, 16] and B : [8, 16, 4096].  From contents that agree on those
  arguments the two lines therefore leave the same A and the same B: unrolled, each is the same term of the arguments.
  That term is never opened.
-/
import proofs.«119206_j67353677136189_1_alg».proof.Proof.RefRun
import proofs.«119206_j67353677136189_1_alg».proof.Proof.Gen.KernelIdeal.Launch
import Idealize.ShloMosaic.PureOps.Ideal

noncomputable section

namespace Cert.Lowrank.Glue

open Idealize.ShloMosaic Idealize.ShloMosaic.TcCoe Idealize.SL.Sem Idealize.ShloMosaic.StableHlo

/-- The kernel program's host operations before its region, as one line. -/
abbrev kernelGlue : List (HloOp Cert.KernelIdeal.τ Cert.KernelIdeal.sig (Elt Ideal)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4]

variable (V : Valuation Cert.KernelIdeal.τ Cert.KernelIdeal.sig (Elt Ideal))
  (W : Valuation Cert.ReferenceIdeal.τ Cert.ReferenceIdeal.sig (Elt Ideal))

set_option maxRecDepth 8192 in
set_option maxHeartbeats 16000000 in
/-- From contents agreeing on arguments 1 to 8, both lines leave the same adapter A. -/
theorem adapterA
    (h1 : W (Cert.ReferenceIdeal.main_arg1 : DevRef Cert.ReferenceIdeal.τ Cert.ReferenceIdeal.sig) = V (Cert.KernelIdeal.main_arg1 : DevRef Cert.KernelIdeal.τ Cert.KernelIdeal.sig))
    (h2 : W (Cert.ReferenceIdeal.main_arg2 : DevRef Cert.ReferenceIdeal.τ Cert.ReferenceIdeal.sig) = V (Cert.KernelIdeal.main_arg2 : DevRef Cert.KernelIdeal.τ Cert.KernelIdeal.sig))
    (h3 : W (Cert.ReferenceIdeal.main_arg3 : DevRef Cert.ReferenceIdeal.τ Cert.ReferenceIdeal.sig) = V (Cert.KernelIdeal.main_arg3 : DevRef Cert.KernelIdeal.τ Cert.KernelIdeal.sig))
    (h4 : W (Cert.ReferenceIdeal.main_arg4 : DevRef Cert.ReferenceIdeal.τ Cert.ReferenceIdeal.sig) = V (Cert.KernelIdeal.main_arg4 : DevRef Cert.KernelIdeal.τ Cert.KernelIdeal.sig))
    (h5 : W (Cert.ReferenceIdeal.main_arg5 : DevRef Cert.ReferenceIdeal.τ Cert.ReferenceIdeal.sig) = V (Cert.KernelIdeal.main_arg5 : DevRef Cert.KernelIdeal.τ Cert.KernelIdeal.sig))
    (h6 : W (Cert.ReferenceIdeal.main_arg6 : DevRef Cert.ReferenceIdeal.τ Cert.ReferenceIdeal.sig) = V (Cert.KernelIdeal.main_arg6 : DevRef Cert.KernelIdeal.τ Cert.KernelIdeal.sig))
    (h7 : W (Cert.ReferenceIdeal.main_arg7 : DevRef Cert.ReferenceIdeal.τ Cert.ReferenceIdeal.sig) = V (Cert.KernelIdeal.main_arg7 : DevRef Cert.KernelIdeal.τ Cert.KernelIdeal.sig))
    (h8 : W (Cert.ReferenceIdeal.main_arg8 : DevRef Cert.ReferenceIdeal.τ Cert.ReferenceIdeal.sig) = V (Cert.KernelIdeal.main_arg8 : DevRef Cert.KernelIdeal.τ Cert.KernelIdeal.sig)) :
    after (Cert.ReferenceIdeal.HandRun.glueOps (F := Ideal)) W (Cert.ReferenceIdeal.main_v45 : DevRef Cert.ReferenceIdeal.τ Cert.ReferenceIdeal.sig)
      = after kernelGlue V (Cert.KernelIdeal.main_v45 : DevRef Cert.KernelIdeal.τ Cert.KernelIdeal.sig) := by
  simp only [kernelGlue, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil,
    List.cons_append, List.nil_append]
  after_results_simp
  rw [h1, h2, h3, h4, h5, h6, h7, h8]
  rfl

set_option maxRecDepth 8192 in
set_option maxHeartbeats 16000000 in
/-- From contents agreeing on arguments 1 to 7 and 9, both lines leave the same adapter B. -/
theorem adapterB
    (h1 : W (Cert.ReferenceIdeal.main_arg1 : DevRef Cert.ReferenceIdeal.τ Cert.ReferenceIdeal.sig) = V (Cert.KernelIdeal.main_arg1 : DevRef Cert.KernelIdeal.τ Cert.KernelIdeal.sig))
    (h2 : W (Cert.ReferenceIdeal.main_arg2 : DevRef Cert.ReferenceIdeal.τ Cert.ReferenceIdeal.sig) = V (Cert.KernelIdeal.main_arg2 : DevRef Cert.KernelIdeal.τ Cert.KernelIdeal.sig))
    (h3 : W (Cert.ReferenceIdeal.main_arg3 : DevRef Cert.ReferenceIdeal.τ Cert.ReferenceIdeal.sig) = V (Cert.KernelIdeal.main_arg3 : DevRef Cert.KernelIdeal.τ Cert.KernelIdeal.sig))
    (h4 : W (Cert.ReferenceIdeal.main_arg4 : DevRef Cert.ReferenceIdeal.τ Cert.ReferenceIdeal.sig) = V (Cert.KernelIdeal.main_arg4 : DevRef Cert.KernelIdeal.τ Cert.KernelIdeal.sig))
    (h5 : W (Cert.ReferenceIdeal.main_arg5 : DevRef Cert.ReferenceIdeal.τ Cert.ReferenceIdeal.sig) = V (Cert.KernelIdeal.main_arg5 : DevRef Cert.KernelIdeal.τ Cert.KernelIdeal.sig))
    (h6 : W (Cert.ReferenceIdeal.main_arg6 : DevRef Cert.ReferenceIdeal.τ Cert.ReferenceIdeal.sig) = V (Cert.KernelIdeal.main_arg6 : DevRef Cert.KernelIdeal.τ Cert.KernelIdeal.sig))
    (h7 : W (Cert.ReferenceIdeal.main_arg7 : DevRef Cert.ReferenceIdeal.τ Cert.ReferenceIdeal.sig) = V (Cert.KernelIdeal.main_arg7 : DevRef Cert.KernelIdeal.τ Cert.KernelIdeal.sig))
    (h9 : W (Cert.ReferenceIdeal.main_arg9 : DevRef Cert.ReferenceIdeal.τ Cert.ReferenceIdeal.sig) = V (Cert.KernelIdeal.main_arg9 : DevRef Cert.KernelIdeal.τ Cert.KernelIdeal.sig)) :
    after (Cert.ReferenceIdeal.HandRun.glueOps (F := Ideal)) W (Cert.ReferenceIdeal.main_v48 : DevRef Cert.ReferenceIdeal.τ Cert.ReferenceIdeal.sig)
      = after kernelGlue V (Cert.KernelIdeal.main_v48 : DevRef Cert.KernelIdeal.τ Cert.KernelIdeal.sig) := by
  simp only [kernelGlue, Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil, List.append_nil,
    List.cons_append, List.nil_append]
  after_results_simp
  rw [h1, h2, h3, h4, h5, h6, h7, h9]
  rfl

end Cert.Lowrank.Glue

end
-- ==== Proof.lean ====
/-
  The certificate of the rank-16 adapter product: the kernel's program against its jnp reference, over the extended reals.

  Both programs first compute, from arguments 1 to 9, a per-batch pair of adapters A : [8, 4096, 16] and B : [8, 16, 4096]
  (layer norm, a two-layer routing network, a softmax gate, the gate's products with two wide weight tables), by the SAME
  host operations; then the kernel's one region computes, tile by tile, ((x · A) · B) · 2 with its products taken into
  zero accumulators and its narrowings to bf16 the identity on the extended reals, and the reference computes the same
  two batched products and the same scaling on the host.  Both results are the one function `Cert.Lowrank.out` of x and of
  the adapters (Proof/Spec.lean): the kernel's by its body's value at an index (Proof/KernelBody.lean) carried from blocks
  to the whole array (Proof/KernelValue.lean), the reference's by its run as a straight line of host operations
  (Proof/RefRun.lean) read at an index (Proof/RefValue.lean); and the adapters are the same arrays on both sides
  (Proof/Glue.lean).  No law of the extended reals beyond reading each product as its sum is used, so the precondition
  (finite inputs) is never opened.  The ideal pass rewrote nothing, so `preserves` has no conjunct.
-/
import proofs.«119206_j67353677136189_1_alg».proof.Defs
import proofs.«119206_j67353677136189_1_alg».proof.Proof.Gen.Kernel
import proofs.«119206_j67353677136189_1_alg».proof.Proof.Gen.Kernel.Frame
import proofs.«119206_j67353677136189_1_alg».proof.Proof.Gen.KernelIdeal
import proofs.«119206_j67353677136189_1_alg».proof.Proof.Gen.KernelIdeal.Frame
import proofs.«119206_j67353677136189_1_alg».proof.Proof.Gen.ReferenceIdeal
import proofs.«119206_j67353677136189_1_alg».proof.Proof.Gen.Pre_finite_inputs
import proofs.«119206_j67353677136189_1_alg».proof.Proof.KernelValue
import proofs.«119206_j67353677136189_1_alg».proof.Proof.RefValue
import proofs.«119206_j67353677136189_1_alg».proof.Proof.Glue
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments both programs end with the result `out` of x and of the adapters: the kernel's
    adapters are what its host operations leave (`Gen.V`), the reference's what its glue operations leave, and those are
    the same arrays. -/
theorem algebraic : Cert.algebraic_KernelIdeal_ReferenceIdeal := by
  intro m ρ m' ρ' _ hagree
  refine ⟨fun c => Cert.Lowrank.out (m ((c.tc : Thread Cert.KernelIdeal.nD Cert.KernelIdeal.τ).loc Cert.KernelIdeal.main_arg0))
      (Cert.KernelIdeal.Gen.V m c Cert.KernelIdeal.main_v45) (Cert.KernelIdeal.Gen.V m c Cert.KernelIdeal.main_v48),
    Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9⟩ := hagree c
  rw [a0, Cert.Lowrank.Glue.adapterA (fun b => m (c, b)) (launchContents m' c) a1 a2 a3 a4 a5 a6 a7 a8,
    Cert.Lowrank.Glue.adapterB (fun b => m (c, b)) (launchContents m' c) a1 a2 a3 a4 a5 a6 a7 a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
